-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384x64 : Shape := ⟨2, ![16384, 64]⟩
abbrev S320x1024 : Shape := ⟨2, ![320, 1024]⟩
abbrev S1024 : Shape := ⟨1, ![1024]⟩
abbrev S1024x4256 : Shape := ⟨2, ![1024, 4256]⟩
abbrev S2176x4 : Shape := ⟨2, ![2176, 4]⟩
abbrev S2176 : Shape := ⟨1, ![2176]⟩
abbrev S32 : Shape := ⟨1, ![32]⟩
abbrev S2048 : Shape := ⟨1, ![2048]⟩
abbrev S2048x1024 : Shape := ⟨2, ![2048, 1024]⟩
abbrev S1024x256 : Shape := ⟨2, ![1024, 256]⟩
abbrev S256 : Shape := ⟨1, ![256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384x64 : S_.BroadcastsInDim S16384x64 (![] : Fin 0 → Fin S16384x64.rank)
  reducesTo_S16384x64_S_d0_1 : S16384x64.ReducesTo [0, 1] S_
  bcast_S_S320x1024 : S_.BroadcastsInDim S320x1024 (![] : Fin 0 → Fin S320x1024.rank)
  reducesTo_S320x1024_S_d0_1 : S320x1024.ReducesTo [0, 1] S_
  bcast_S_S1024 : S_.BroadcastsInDim S1024 (![] : Fin 0 → Fin S1024.rank)
  reducesTo_S1024_S_d0 : S1024.ReducesTo [0] S_
  bcast_S_S1024x4256 : S_.BroadcastsInDim S1024x4256 (![] : Fin 0 → Fin S1024x4256.rank)
  reducesTo_S1024x4256_S_d0_1 : S1024x4256.ReducesTo [0, 1] S_
  bcast_S_S2176x4 : S_.BroadcastsInDim S2176x4 (![] : Fin 0 → Fin S2176x4.rank)
  reducesTo_S2176x4_S_d0_1 : S2176x4.ReducesTo [0, 1] S_
  bcast_S_S2176 : S_.BroadcastsInDim S2176 (![] : Fin 0 → Fin S2176.rank)
  reducesTo_S2176_S_d0 : S2176.ReducesTo [0] S_
  bcast_S_S32 : S_.BroadcastsInDim S32 (![] : Fin 0 → Fin S32.rank)
  reducesTo_S32_S_d0 : S32.ReducesTo [0] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S2048x1024 .f32) (main_arg12 : FVec F S1024x256 .f32) (main_arg13 : FVec F S256 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x1024 .f32 := Host.absf main_arg11
  let main_cst_20 : FVec F S_ .f32 := constant S_ .f32 0x7F800000#32
  let main_v55 : FVec F S2048x1024 .f32 := broadcastInDim S2048x1024 ![] bcast_S_S2048x1024 main_cst_20
  let main_v56 : IVec S2048x1024 1 := cmpf .olt main_v54 main_v55
  let main_c_21 : IVec S_ 1 := constantI S_ 1 1#1
  let main_v57 : IVec S_ 1 := (fun x v => Host.reduce IntOp.andi x v reducesTo_S2048x1024_S_d0_1 h_S_) main_v56 main_c_21
  let main_v58 : IVec S_ 1 := andi main_v53 main_v57
  let main_v59 : FVec F S1024x256 .f32 := Host.absf main_arg12
  let main_cst_22 : FVec F S_ .f32 := constant S_ .f32 0x7F800000#32
  let main_v60 : FVec F S1024x256 .f32 := broadcastInDim S1024x256 ![] bcast_S_S1024x256 main_cst_22
  let main_v61 : IVec S1024x256 1 := cmpf .olt main_v59 main_v60
  let main_c_23 : IVec S_ 1 := constantI S_ 1 1#1
  let main_v62 : IVec S_ 1 := (fun x v => Host.reduce IntOp.andi x v reducesTo_S1024x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_v63 main_v67

def fn_part2 {F : FTy → Type} [FloatOps F] (main_arg7 : FVec F S32 .f32) (main_arg8 : FVec F S32 .f32) (main_arg9 : FVec F S32 .f32) (main_arg10 : FVec F S2048 .f32) (main_arg11 : FVec F S2048x1024 .f32) (main_arg12 : FVec F S1024x256 .f32) (main_arg13 : FVec F S256 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_v48 main_v49 main_v50

def fn_part1 {F : FTy → Type} [FloatOps F] (main_arg4 : FVec F S1024x4256 .f32) (main_arg5 : FVec F S2176x4 .f32) (main_arg6 : FVec F S2176 .f32) (main_arg7 : FVec F S32 .f32) (main_arg8 : FVec F S32 .f32) (main_arg9 : FVec F S32 .f32) (main_arg10 : FVec F S2048 .f32) (main_arg11 : FVec F S2048x1024 .f32) (main_arg12 : FVec F S1024x256 .f32) (main_arg13 : FVec F S256 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x4256 .f32 := Host.absf main_arg4
  let main_cst_6 : FVec F S_ .f32 := constant S_ .f32 0x7F800000#32
  let main_v20 : FVec F S1024x4256 .f32 := broadcastInDim S1024x4256 ![] bcast_S_S1024x4256 main_cst_6
  let main_v21 : IVec S1024x4256 1 := cmpf .olt main_v19 main_v20
  let main_c_7 : IVec S_ 1 := constantI S_ 1 1#1
  let main_v22 : IVec S_ 1 := (fun x v => Host.reduce IntOp.andi x v reducesTo_S1024x4256_S_d0_1 h_S_) main_v21 main_c_7
  let main_v23 : IVec S_ 1 := andi main_v18 main_v22
  let main_v24 : FVec F S2176x4 .f32 := Host.absf main_arg5
  let main_cst_8 : FVec F S_ .f32 := constant S_ .f32 0x7F800000#32
  let main_v25 : FVec F S2176x4 .f32 := broadcastInDim S2176x4 ![] bcast_S_S2176x4 main_cst_8
  let main_v26 : IVec S2176x4 1 := cmpf .olt main_v24 main_v25
  let main_c_9 : IVec S_ 1 := constantI S_ 1 1#1
  let main_v27 : IVec S_ 1 := (fun x v => Host.reduce IntOp.andi x v reducesTo_S2176x4_S_d0_1 h_S_) main_v26 main_c_9
  let main_v28 : IVec S_ 1 := andi main_v23 main_v27
  let main_v29 : FVec F S2176 .f32 := Host.absf main_arg6
  let main_cst_10 : FVec F S_ .f32 := constant S_ .f32 0x7F800000#32
  let main_v30 : FVec F S2176 .f32 := broadcastInDim S2176 ![] bcast_S_S2176 main_cst_10
  let main_v31 : IVec S2176 1 := cmpf .olt main_v29 main_v30
  let main_c_11 : IVec S_ 1 := constantI S_ 1 1#1
  let main_v32 : IVec S_ 1 := (fun x v => Host.reduce IntOp.andi x v reducesTo_S2176_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S16384x256 .f32) (main_arg1 : FVec F S16384x64 .f32) (main_arg2 : FVec F S320x1024 .f32) (main_arg3 : FVec F S1024 .f32) (main_arg4 : FVec F S1024x4256 .f32) (main_arg5 : FVec F S2176x4 .f32) (main_arg6 : FVec F S2176 .f32) (main_arg7 : FVec F S32 .f32) (main_arg8 : FVec F S32 .f32) (main_arg9 : FVec F S32 .f32) (main_arg10 : FVec F S2048 .f32) (main_arg11 : FVec F S2048x1024 .f32) (main_arg12 : FVec F S1024x256 .f32) (main_arg13 : FVec F S256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  let main_v9 : FVec F S320x1024 .f32 := Host.absf main_arg2
  let main_cst_2 : FVec F S_ .f32 := constant S_ .f32 0x7F800000#32
  let main_v10 : FVec F S320x1024 .f32 := broadcastInDim S320x1024 ![] bcast_S_S320x1024 main_cst_2
  let main_v11 : IVec S320x1024 1 := cmpf .olt main_v9 main_v10
  let main_c_3 : IVec S_ 1 := constantI S_ 1 1#1
  let main_v12 : IVec S_ 1 := (fun x v => Host.reduce IntOp.andi x v reducesTo_S320x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S16384x256 : Shape := ⟨2, ![16384, 256]⟩
abbrev S16384x64 : Shape := ⟨2, ![16384, 64]⟩
abbrev S320x1024 : Shape := ⟨2, ![320, 1024]⟩
abbrev S1024 : Shape := ⟨1, ![1024]⟩
abbrev S1024x4256 : Shape := ⟨2, ![1024, 4256]⟩
abbrev S2176x4 : Shape := ⟨2, ![2176, 4]⟩
abbrev S2176 : Shape := ⟨1, ![2176]⟩
abbrev S32 : Shape := ⟨1, ![32]⟩
abbrev S2048 : Shape := ⟨1, ![2048]⟩
abbrev S2048x1024 : Shape := ⟨2, ![2048, 1024]⟩
abbrev S1024x256 : Shape := ⟨2, ![1024, 256]⟩
abbrev S256 : Shape := ⟨1, ![256]⟩
abbrev S16384x320 : Shape := ⟨2, ![16384, 320]⟩
abbrev S1x1024 : Shape := ⟨2, ![1, 1024]⟩
abbrev S2176x1 : Shape := ⟨2, ![2176, 1]⟩
abbrev S1x2176 : Shape := ⟨2, ![1, 2176]⟩
abbrev S1x32 : Shape := ⟨2, ![1, 32]⟩
abbrev S32x64 : Shape := ⟨2, ![32, 64]⟩
abbrev S1x2048 : Shape := ⟨2, ![1, 2048]⟩
abbrev S32x32 : Shape := ⟨2, ![32, 32]⟩
abbrev S_ : Shape := ⟨0, ![]⟩
abbrev S32x32x64 : Shape := ⟨3, ![32, 32, 64]⟩
abbrev S32x2048 : Shape := ⟨2, ![32, 2048]⟩
abbrev S1x256 : Shape := ⟨2, ![1, 256]⟩
abbrev S256x320 : Shape := ⟨2, ![256, 320]⟩
abbrev S256x256 : Shape := ⟨2, ![256, 256]⟩
abbrev S256x1024 : Shape := ⟨2, ![256, 1024]⟩
abbrev S256x4256 : Shape := ⟨2, ![256, 4256]⟩
abbrev S256x2048 : Shape := ⟨2, ![256, 2048]⟩
abbrev S256x2176 : Shape := ⟨2, ![256, 2176]⟩
abbrev S256x32 : Shape := ⟨2, ![256, 32]⟩
abbrev S256x64 : Shape := ⟨2, ![256, 64]⟩
abbrev S256x1 : Shape := ⟨2, ![256, 1]⟩

abbrev nBuf : Space → Nat
  | .hbm => 41
  | .vmem => 16
  | .smem => 0
  | _ => 0

abbrev bufTy : (tb : Table) → Fin (tcTables nBuf tb) → BufTy
  | .hbm, ⟨0, _⟩ => ⟨S16384x256, .f32⟩
  | .hbm, ⟨1, _⟩ => ⟨S16384x64, .f32⟩
  | .hbm, ⟨2, _⟩ => ⟨S320x1024, .f32⟩
  | .hbm, ⟨3, _⟩ => ⟨S1024, .f32⟩
  | .hbm, ⟨4, _⟩ => ⟨S1024x4256, .f32⟩
  | .hbm, ⟨5, _⟩ => ⟨S2176x4, .f32⟩
  | .hbm, ⟨6, _⟩ => ⟨S2176, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S2048, .f32⟩
  | .hbm, ⟨11, _⟩ => ⟨S2048x1024, .f32⟩
  | .hbm, ⟨12, _⟩ => ⟨S1024x256, .f32⟩
  | .hbm, ⟨13, _⟩ => ⟨S256, .f32⟩
  | .hbm, ⟨14, _⟩ => ⟨S16384x320, .f32⟩
  | .hbm, ⟨15, _⟩ => ⟨S16384x320, .bf16⟩
  | .hbm, ⟨16, _⟩ => ⟨S320x1024, .bf16⟩
  | .hbm, ⟨17, _⟩ => ⟨S1x1024, .f32⟩
  | .hbm, ⟨18, _⟩ => ⟨S1024x4256, .bf16⟩
  | .hbm, ⟨19, _⟩ => ⟨S2176x1, .f32⟩
  | .hbm, ⟨20, _⟩ => ⟨S2176, .f32⟩
  | .hbm, ⟨21, _⟩ => ⟨S1x2176, .f32⟩
  | .hbm, ⟨22, _⟩ => ⟨S1x2176, .f32⟩
  | .hbm, ⟨23, _⟩ => ⟨S1x32, .f32⟩
  | .hbm, ⟨24, _⟩ => ⟨S32x64, .f32⟩
  | .hbm, ⟨25, _⟩ => ⟨S2048, .f32⟩
  | .hbm, ⟨26, _⟩ => ⟨S1x2048, .f32⟩
  | .hbm, ⟨27, _⟩ => ⟨S32x32, .i32⟩
  | .hbm, ⟨28, _⟩ => ⟨S32x32, .i32⟩
  | .hbm, ⟨29, _⟩ => ⟨S_, .i32⟩
  | .hbm, ⟨30, _⟩ => ⟨S32x32, .i32⟩
  | .hbm, ⟨31, _⟩ => ⟨S32x32, .i32⟩
  | .hbm, ⟨32, _⟩ => ⟨S32x32, .i1⟩
  | .hbm, ⟨33, _⟩ => ⟨S32x32, .bf16⟩
  | .hbm, ⟨34, _⟩ => ⟨S32x32x64, .bf16⟩
  | .hbm, ⟨35, _⟩ => ⟨S32x2048, .bf16⟩
  | .hbm, ⟨36, _⟩ => ⟨S1x2048, .f32⟩
  | .hbm, ⟨37, _⟩ => ⟨S2048x1024, .bf16⟩
  | .hbm, ⟨38, _⟩ => ⟨S1024x256, .bf16⟩
  | .hbm, ⟨39, _⟩ => ⟨S1x256, .f32⟩
  | .hbm, ⟨40, _⟩ => ⟨S16384x256, .f32⟩
  | .local _ .vmem, ⟨0, _⟩ => ⟨S256x320, .bf16⟩
  | .local _ .vmem, ⟨1, _⟩ => ⟨S256x320, .bf16⟩
  | .local _ .vmem, ⟨2, _⟩ => ⟨S320x1024, .bf16⟩
  | .local _ .vmem, ⟨3, _⟩ => ⟨S1x1024, .f32⟩
  | .local _ .vmem, ⟨4, _⟩ => ⟨S1024x4256, .bf16⟩
  | .local _ .vmem, ⟨5, _⟩ => ⟨S1x2176, .f32⟩
  | .local _ .vmem, ⟨6, _⟩ => ⟨S1x2176, .f32⟩
  | .local _ .vmem, ⟨7, _⟩ => ⟨S1x32, .f32⟩
  | .local _ .vmem, ⟨8, _⟩ => ⟨S1x2048, .f32⟩
  | .local _ .vmem, ⟨9, _⟩ => ⟨S32x2048, .bf16⟩
  | .local _ .vmem, ⟨10, _⟩ => ⟨S1x2048, .f32⟩
  | .local _ .vmem, ⟨11, _⟩ => ⟨S2048x1024, .bf16⟩
  | .local _ .vmem, ⟨12, _⟩ => ⟨S1024x256, .bf16⟩
  | .local _ .vmem, ⟨13, _⟩ => ⟨S1x256, .f32⟩
  | .local _ .vmem, ⟨14, _⟩ => ⟨S256x256, .f32⟩
  | .local _ .vmem, ⟨15, _⟩ => ⟨S256x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x320 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S320x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2176 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2176 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  concatenates_S16384x256_S16384x64_S16384x320_d1 : Shape.Concatenates [S16384x256, S16384x64] S16384x320 1
  bitsLt_bf16_f32 : FTy.bits .bf16 < FTy.bits .f32
  shapeCasts_S1024_S1x1024 : S1024.ShapeCasts S1x1024
  slices_S2176x4_S2176x1_0_3 : S2176x4.Slices ![0, 3] S2176x1
  shapeCasts_S2176x1_S2176 : S2176x1.ShapeCasts S2176
  shapeCasts_S2176_S1x2176 : S2176.ShapeCasts S1x2176
  shapeCasts_S32_S1x32 : S32.ShapeCasts S1x32
  bcast_S32_S32x64_0 : S32.BroadcastsInDim S32x64 (![0] : Fin 1 → Fin S32x64.rank)
  shapeCasts_S32x64_S2048 : S32x64.ShapeCasts S2048
  shapeCasts_S2048_S1x2048 : S2048.ShapeCasts S1x2048
  bcast_S_S32x32 : S_.BroadcastsInDim S32x32 (![] : Fin 0 → Fin S32x32.rank)
  bcast_S32x32_S32x32x64_0_1 : S32x32.BroadcastsInDim S32x32x64 (![0, 1] : Fin 2 → Fin S32x32x64.rank)
  shapeCasts_S32x32x64_S32x2048 : S32x32x64.ShapeCasts S32x2048
  shapeCasts_S256_S1x256 : S256.ShapeCasts S1x256
  inb_S256x320_S256x320_0_0 : ∀ a, (![0, 0] : Fin 2 → Nat) a + S256x320.size a ≤ S256x320.size a
  h_S256x320 : 0 < S256x320.numel
  shapeCasts_S256x320_S256x320 : S256x320.ShapeCasts S256x320
  inb_S320x1024_S320x1024_0_0 : ∀ a, (![0, 0] : Fin 2 → Nat) a + S320x1024.size a ≤ S320x1024.size a
  h_S320x1024 : 0 < S320x1024.numel
  shapeCasts_S320x1024_S320x1024 : S320x1024.ShapeCasts S320x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x4256_S1024x4256_0_0 : ∀ a, (![0, 0] : Fin 2 → Nat) a + S1024x4256.size a ≤ S1024x4256.size a
  h_S1024x4256 : 0 < S1024x4256.numel
  shapeCasts_S1024x4256_S1024x4256 : S1024x4256.ShapeCasts S1024x4256
  slices_S256x4256_o0_0_S256x2048 : S256x4256.Slices ![0, 0] S256x2048
  slices_S256x4256_o0_2048_S256x2176 : S256x4256.Slices ![0, 2048] S256x2176
  slices_S256x4256_o0_4224_S256x32 : S256x4256.Slices ![0, 4224] S256x32
  inb_S1x2176_S1x2176_0_0 : ∀ a, (![0, 0] : Fin 2 → Nat) a + S1x2176.size a ≤ S1x2176.size a
  h_S1x2176 : 0 < S1x2176.numel
  shapeCasts_S1x2176_S1x2176 : S1x2176.ShapeCasts S1x2176
  broadcasts_S1x2176_S256x2176 : S1x2176.Broadcasts S256x2176
  slices_S256x2176_o0_0_S256x2048 : S256x2176.Slices ![0, 0] S256x2048
  slices_S256x2176_o0_2048_S256x64 : S256x2176.Slices ![0, 2048] S256x64
  slices_S256x2176_o0_2112_S256x64 : S256x2176.Slices ![0, 2112] S256x64
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S256x32 : S1x32.Broadcasts S256x32
  reduces_S256x64_S256 : S256x64.Reduces [1] S256
  shapeCasts_S256_S256x1 : S256.ShapeCasts S256x1
  broadcasts_S256x1_S256x32 : S256x1.Broadcasts S256x32
  inb_S32x2048_S32x2048_0_0 : ∀ a, (![0, 0] : Fin 2 → Nat) a + S32x2048.size a ≤ S32x2048.size a
  h_S32x2048 : 0 < S32x2048.numel
  shapeCasts_S32x2048_S32x2048 : S32x2048.ShapeCasts S32x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  reduces_S256x2048_S256 : S256x2048.Reduces [1] S256
  broadcasts_S256x1_S256x2048 : S256x1.Broadcasts S256x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  dot_S256x320_S320x1024_S256x1024_1_0_0_1_n_n_wf : DotDims.WF S256x320 S320x1024 S256x1024 [1] [0] [0] [1] [] []
  dot_S256x1024_S1024x4256_S256x4256_1_0_0_1_n_n_wf : DotDims.WF S256x1024 S1024x4256 S256x4256 [1] [0] [0] [1] [] []
  dot_S256x32_S32x2048_S256x2048_1_0_0_1_n_n_wf : DotDims.WF S256x32 S32x2048 S256x2048 [1] [0] [0] [1] [] []
  dot_S256x2048_S2048x1024_S256x1024_1_0_0_1_n_n_wf : DotDims.WF S256x2048 S2048x1024 S256x1024 [1] [0] [0] [1] [] []
  dot_S256x1024_S1024x256_S256x256_1_0_0_1_n_n_wf : DotDims.WF S256x1024 S1024x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x320.size a ≤ S16384x320.size a
  hwx0_0 : ∀ i : grid0.Coords, EltTy.bits .bf16 = 32 ∨ (Rect.block (s := S16384x320) S256x320.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S320x1024.size a ≤ S320x1024.size a
  hwx0_1 : ∀ i : grid0.Coords, EltTy.bits .bf16 = 32 ∨ (Rect.block (s := S320x1024) S320x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4256.size a ≤ S1024x4256.size a
  hwx0_3 : ∀ i : grid0.Coords, EltTy.bits .bf16 = 32 ∨ (Rect.block (s := S1024x4256) S1024x4256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2176.size a ≤ S1x2176.size a
  hwx0_4 : ∀ i : grid0.Coords, EltTy.bits .f32 = 32 ∨ (Rect.block (s := S1x2176) S1x2176.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2176.size a ≤ S1x2176.size a
  hwx0_5 : ∀ i : grid0.Coords, EltTy.bits .f32 = 32 ∨ (Rect.block (s := S1x2176) S1x2176.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32x2048.size a ≤ S32x2048.size a
  hwx0_8 : ∀ i : grid0.Coords, EltTy.bits .bf16 = 32 ∨ (Rect.block (s := S32x2048) S32x2048.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x2048.size a ≤ S1x2048.size a
  hwx0_9 : ∀ i : grid0.Coords, EltTy.bits .f32 = 32 ∨ (Rect.block (s := S1x2048) S1x2048.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2048x1024.size a ≤ S2048x1024.size a
  hwx0_10 : ∀ i : grid0.Coords, EltTy.bits .bf16 = 32 ∨ (Rect.block (s := S2048x1024) S2048x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x256.size a ≤ S1024x256.size a
  hwx0_11 : ∀ i : grid0.Coords, EltTy.bits .bf16 = 32 ∨ (Rect.block (s := S1024x256) S1024x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x256.size a
  hwx0_12 : ∀ i : grid0.Coords, EltTy.bits .f32 = 32 ∨ (Rect.block (s := S1x256) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x256.size a ≤ S16384x256.size a
  hwx0_13 : ∀ i : grid0.Coords, EltTy.bits .f32 = 32 ∨ (Rect.block (s := S16384x256) S256x256.size (cc0_transform_13 i) (hinb0_13 i)).WholeWords (EltTy.packing .f32)

variable [Facts₀]

def dot_S256x320_S320x1024_S256x1024_1_0_0_1_n_n : DotDims S256x320 S320x1024 S256x1024 where
  lhsContracting := [1]
  rhsContracting := [0]
  lhsNonContracting := [0]
  rhsNonContracting := [1]
  lhsBatch := []
  rhsBatch := []
  wf := dot_S256x320_S320x1024_S256x1024_1_0_0_1_n_n_wf
def dot_S256x1024_S1024x4256_S256x4256_1_0_0_1_n_n : DotDims S256x1024 S1024x4256 S256x4256 where
  lhsContracting := [1]
  rhsContracting := [0]
  lhsNonContracting := [0]
  rhsNonContracting := [1]
  lhsBatch := []
  rhsBatch := []
  wf := dot_S256x1024_S1024x4256_S256x4256_1_0_0_1_n_n_wf
def dot_S256x32_S32x2048_S256x2048_1_0_0_1_n_n : DotDims S256x32 S32x2048 S256x2048 where
  lhsContracting := [1]
  rhsContracting := [0]
  lhsNonContracting := [0]
  rhsNonContracting := [1]
  lhsBatch := []
  rhsBatch := []
  wf := dot_S256x32_S32x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf

abbrev win0_0 : Pipeline.Window sig grid0 :=
  Pipeline.Window.ofSpec (Memref.whole main_v1) S256x320.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S320x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x4256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x2176.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x2176.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S32x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21) S1x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v22) S2048x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v23) S1024x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v24) S1x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v25) S256x256.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S16384x256 : Shape := ⟨2, ![16384, 256]⟩
abbrev S16384x64 : Shape := ⟨2, ![16384, 64]⟩
abbrev S320x1024 : Shape := ⟨2, ![320, 1024]⟩
abbrev S1024 : Shape := ⟨1, ![1024]⟩
abbrev S1024x4256 : Shape := ⟨2, ![1024, 4256]⟩
abbrev S2176x4 : Shape := ⟨2, ![2176, 4]⟩
abbrev S2176 : Shape := ⟨1, ![2176]⟩
abbrev S32 : Shape := ⟨1, ![32]⟩
abbrev S2048 : Shape := ⟨1, ![2048]⟩
abbrev S2048x1024 : Shape := ⟨2, ![2048, 1024]⟩
abbrev S1024x256 : Shape := ⟨2, ![1024, 256]⟩
abbrev S256 : Shape := ⟨1, ![256]⟩
abbrev S16384x320 : Shape := ⟨2, ![16384, 320]⟩
abbrev S16384x1024 : Shape := ⟨2, ![16384, 1024]⟩
abbrev S1x1024 : Shape := ⟨2, ![1, 1024]⟩
abbrev S16384x4256 : Shape := ⟨2, ![16384, 4256]⟩
abbrev S16384x2048 : Shape := ⟨2, ![16384, 2048]⟩
abbrev S16384x2176 : Shape := ⟨2, ![16384, 2176]⟩
abbrev S16384x32 : Shape := ⟨2, ![16384, 32]⟩
abbrev S2176x1 : Shape := ⟨2, ![2176, 1]⟩
abbrev S1x2176 : Shape := ⟨2, ![1, 2176]⟩
abbrev S_ : Shape := ⟨0, ![]⟩
abbrev S1x32 : Shape := ⟨2, ![1, 32]⟩
abbrev S16384x32x64 : Shape := ⟨3, ![16384, 32, 64]⟩
abbrev S16384 : Shape := ⟨1, ![16384]⟩
abbrev S16384x1 : Shape := ⟨2, ![16384, 1]⟩
abbrev S16384x32x1 : Shape := ⟨3, ![16384, 32, 1]⟩
abbrev S1x32x1 : Shape := ⟨3, ![1, 32, 1]⟩
abbrev S1x2048 : Shape := ⟨2, ![1, 2048]⟩
abbrev S1x256 : Shape := ⟨2, ![1, 256]⟩

abbrev nBuf : Space → Nat
  | .hbm => 106
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x64, .f32⟩
  | .hbm, ⟨2, _⟩ => ⟨S320x1024, .f32⟩
  | .hbm, ⟨3, _⟩ => ⟨S1024, .f32⟩
  | .hbm, ⟨4, _⟩ => ⟨S1024x4256, .f32⟩
  | .hbm, ⟨5, _⟩ => ⟨S2176x4, .f32⟩
  | .hbm, ⟨6, _⟩ => ⟨S2176, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S2048, .f32⟩
  | .hbm, ⟨11, _⟩ => ⟨S2048x1024, .f32⟩
  | .hbm, ⟨12, _⟩ => ⟨S1024x256, .f32⟩
  | .hbm, ⟨13, _⟩ => ⟨S256, .f32⟩
  | .hbm, ⟨14, _⟩ => ⟨S16384x320, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x4256, .f32⟩
  | .hbm, ⟨20, _⟩ => ⟨S16384x2048, .f32⟩
  | .hbm, ⟨21, _⟩ => ⟨S16384x2176, .f32⟩
  | .hbm, ⟨22, _⟩ => ⟨S16384x32, .f32⟩
  | .hbm, ⟨23, _⟩ => ⟨S2176x1, .f32⟩
  | .hbm, ⟨24, _⟩ => ⟨S2176, .f32⟩
  | .hbm, ⟨25, _⟩ => ⟨S1x2176, .f32⟩
  | .hbm, ⟨26, _⟩ => ⟨S16384x2176, .f32⟩
  | .hbm, ⟨27, _⟩ => ⟨S16384x2176, .f32⟩
  | .hbm, ⟨28, _⟩ => ⟨S1x2176, .f32⟩
  | .hbm, ⟨29, _⟩ => ⟨S16384x2176, .f32⟩
  | .hbm, ⟨30, _⟩ => ⟨S16384x2176, .f32⟩
  | .hbm, ⟨31, _⟩ => ⟨S16384x2176, .f32⟩
  | .hbm, ⟨32, _⟩ => ⟨S16384x2176, .f32⟩
  | .hbm, ⟨33, _⟩ => ⟨S_, .f32⟩
  | .hbm, ⟨34, _⟩ => ⟨S16384x2176, .f32⟩
  | .hbm, ⟨35, _⟩ => ⟨S16384x2176, .f32⟩
  | .hbm, ⟨36, _⟩ => ⟨S_, .f32⟩
  | .hbm, ⟨37, _⟩ => ⟨S16384x2176, .f32⟩
  | .hbm, ⟨38, _⟩ => ⟨S16384x2176, .f32⟩
  | .hbm, ⟨39, _⟩ => ⟨S16384x2176, .f32⟩
  | .hbm, ⟨40, _⟩ => ⟨S16384x2048, .f32⟩
  | .hbm, ⟨41, _⟩ => ⟨S16384x64, .f32⟩
  | .hbm, ⟨42, _⟩ => ⟨S16384x64, .f32⟩
  | .hbm, ⟨43, _⟩ => ⟨S1x32, .f32⟩
  | .hbm, ⟨44, _⟩ => ⟨S16384x32, .f32⟩
  | .hbm, ⟨45, _⟩ => ⟨S16384x32, .f32⟩
  | .hbm, ⟨46, _⟩ => ⟨S_, .f32⟩
  | .hbm, ⟨47, _⟩ => ⟨S16384x32, .f32⟩
  | .hbm, ⟨48, _⟩ => ⟨S16384x32, .f32⟩
  | .hbm, ⟨49, _⟩ => ⟨S16384x32, .f32⟩
  | .hbm, ⟨50, _⟩ => ⟨S16384x32, .f32⟩
  | .hbm, ⟨51, _⟩ => ⟨S16384x32, .i1⟩
  | .hbm, ⟨52, _⟩ => ⟨S16384x32, .f32⟩
  | .hbm, ⟨53, _⟩ => ⟨S16384x32, .f32⟩
  | .hbm, ⟨54, _⟩ => ⟨S16384x32, .f32⟩
  | .hbm, ⟨55, _⟩ => ⟨S16384x32, .f32⟩
  | .hbm, ⟨56, _⟩ => ⟨S16384x32, .f32⟩
  | .hbm, ⟨57, _⟩ => ⟨S16384x32, .f32⟩
  | .hbm, ⟨58, _⟩ => ⟨S16384x32, .f32⟩
  | .hbm, ⟨59, _⟩ => ⟨S16384x32, .f32⟩
  | .hbm, ⟨60, _⟩ => ⟨S16384x32x64, .f32⟩
  | .hbm, ⟨61, _⟩ => ⟨S16384x64, .f32⟩
  | .hbm, ⟨62, _⟩ => ⟨S_, .f32⟩
  | .hbm, ⟨63, _⟩ => ⟨S16384, .f32⟩
  | .hbm, ⟨64, _⟩ => ⟨S16384x1, .f32⟩
  | .hbm, ⟨65, _⟩ => ⟨S16384x32, .f32⟩
  | .hbm, ⟨66, _⟩ => ⟨S16384x32, .f32⟩
  | .hbm, ⟨67, _⟩ => ⟨S16384x32x1, .f32⟩
  | .hbm, ⟨68, _⟩ => ⟨S16384x32x64, .f32⟩
  | .hbm, ⟨69, _⟩ => ⟨S16384x32x64, .f32⟩
  | .hbm, ⟨70, _⟩ => ⟨S1x32x1, .f32⟩
  | .hbm, ⟨71, _⟩ => ⟨S16384x32x64, .f32⟩
  | .hbm, ⟨72, _⟩ => ⟨S16384x32x64, .f32⟩
  | .hbm, ⟨73, _⟩ => ⟨S16384x32x64, .f32⟩
  | .hbm, ⟨74, _⟩ => ⟨S16384x2048, .f32⟩
  | .hbm, ⟨75, _⟩ => ⟨S16384x2048, .f32⟩
  | .hbm, ⟨76, _⟩ => ⟨S16384x2048, .f32⟩
  | .hbm, ⟨77, _⟩ => ⟨S_, .f32⟩
  | .hbm, ⟨78, _⟩ => ⟨S16384x2048, .f32⟩
  | .hbm, ⟨79, _⟩ => ⟨S16384x2048, .f32⟩
  | .hbm, ⟨80, _⟩ => ⟨S_, .f32⟩
  | .hbm, ⟨81, _⟩ => ⟨S16384x2048, .f32⟩
  | .hbm, ⟨82, _⟩ => ⟨S16384x2048, .f32⟩
  | .hbm, ⟨83, _⟩ => ⟨S16384x2048, .f32⟩
  | .hbm, ⟨84, _⟩ => ⟨S16384x2048, .f32⟩
  | .hbm, ⟨85, _⟩ => ⟨S16384x2048, .f32⟩
  | .hbm, ⟨86, _⟩ => ⟨S_, .f32⟩
  | .hbm, ⟨87, _⟩ => ⟨S16384, .f32⟩
  | .hbm, ⟨88, _⟩ => ⟨S16384x1, .f32⟩
  | .hbm, ⟨89, _⟩ => ⟨S_, .f32⟩
  | .hbm, ⟨90, _⟩ => ⟨S16384x1, .f32⟩
  | .hbm, ⟨91, _⟩ => ⟨S16384x1, .f32⟩
  | .hbm, ⟨92, _⟩ => ⟨S_, .f32⟩
  | .hbm, ⟨93, _⟩ => ⟨S16384x1, .f32⟩
  | .hbm, ⟨94, _⟩ => ⟨S16384x1, .f32⟩
  | .hbm, ⟨95, _⟩ => ⟨S16384x1, .f32⟩
  | .hbm, ⟨96, _⟩ => ⟨S16384x2048, .f32⟩
  | .hbm, ⟨97, _⟩ => ⟨S16384x2048, .f32⟩
  | .hbm, ⟨98, _⟩ => ⟨S1x2048, .f32⟩
  | .hbm, ⟨99, _⟩ => ⟨S16384x2048, .f32⟩
  | .hbm, ⟨100, _⟩ => ⟨S16384x2048, .f32⟩
  | .hbm, ⟨101, _⟩ => ⟨S16384x1024, .f32⟩
  | .hbm, ⟨102, _⟩ => ⟨S16384x256, .f32⟩
  | .hbm, ⟨103, _⟩ => ⟨S1x256, .f32⟩
  | .hbm, ⟨104, _⟩ => ⟨S16384x256, .f32⟩
  | .hbm, ⟨105, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call1_cst : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_cst : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_call2_v0 : Ref sig .tc := ⟨.hbm, 75, rfl⟩
abbrev main_call2_v1 : Ref sig .tc := ⟨.hbm, 76, rfl⟩
abbrev main_call2_cst : Ref sig .tc := ⟨.hbm, 77, rfl⟩
abbrev main_call2_v2 : Ref sig .tc := ⟨.hbm, 78, rfl⟩
abbrev main_call2_v3 : Ref sig .tc := ⟨.hbm, 79, rfl⟩
abbrev main_call2_cst_0 : Ref sig .tc := ⟨.hbm, 80, rfl⟩
abbrev main_call2_v4 : Ref sig .tc := ⟨.hbm, 81, rfl⟩
abbrev main_call2_v5 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_cst_0 : Ref sig .tc := ⟨.hbm, 86, rfl⟩
abbrev main_v42 : Ref sig .tc := ⟨.hbm, 87, rfl⟩
abbrev main_v43 : Ref sig .tc := ⟨.hbm, 88, rfl⟩
abbrev main_cst_1 : Ref sig .tc := ⟨.hbm, 89, rfl⟩
abbrev main_v44 : Ref sig .tc := ⟨.hbm, 90, rfl⟩
abbrev main_v45 : Ref sig .tc := ⟨.hbm, 91, rfl⟩
abbrev main_cst_2 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩

abbrev nD : Nat := 1
abbrev τ : Topo := Topo.v7x

variable {F : FTy → Type} [FloatOps F]

class Facts₀ : Prop where
  concatenates_S16384x256_S16384x64_S16384x320_d1 : Shape.Concatenates [S16384x256, S16384x64] S16384x320 1
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  slices_S16384x4256_S16384x2048_0_0 : S16384x4256.Slices ![0, 0] S16384x2048
  slices_S16384x4256_S16384x2176_0_2048 : S16384x4256.Slices ![0, 2048] S16384x2176
  slices_S16384x4256_S16384x32_0_4224 : S16384x4256.Slices ![0, 4224] S16384x32
  slices_S2176x4_S2176x1_0_3 : S2176x4.Slices ![0, 3] S2176x1
  shapeCasts_S2176x1_S2176 : S2176x1.ShapeCasts S2176
  bcast_S2176_S1x2176_1 : S2176.BroadcastsInDim S1x2176 (![1] : Fin 1 → Fin S1x2176.rank)
  bcast_S1x2176_S16384x2176_0_1 : S1x2176.BroadcastsInDim S16384x2176 (![0, 1] : Fin 2 → Fin S16384x2176.rank)
  bcast_S_S16384x2176 : S_.BroadcastsInDim S16384x2176 (![] : Fin 0 → Fin S16384x2176.rank)
  slices_S16384x2176_S16384x2048_0_0 : S16384x2176.Slices ![0, 0] S16384x2048
  slices_S16384x2176_S16384x64_0_2048 : S16384x2176.Slices ![0, 2048] S16384x64
  slices_S16384x2176_S16384x64_0_2112 : S16384x2176.Slices ![0, 2112] S16384x64
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  shapeCasts_S16384x2048_S16384x32x64 : S16384x2048.ShapeCasts S16384x32x64
  reducesTo_S16384x64_S16384_d1 : S16384x64.ReducesTo [1] S16384
  h_S_ : 0 < S_.numel
  bcast_S16384_S16384x1_0 : S16384.BroadcastsInDim S16384x1 (![0] : Fin 1 → Fin S16384x1.rank)
  bcast_S16384x1_S16384x32_0_1 : S16384x1.BroadcastsInDim S16384x32 (![0, 1] : Fin 2 → Fin S16384x32.rank)
  bcast_S16384x32_S16384x32x1_0_1 : S16384x32.BroadcastsInDim S16384x32x1 (![0, 1] : Fin 2 → Fin S16384x32x1.rank)
  bcast_S16384x32x1_S16384x32x64_0_1_2 : S16384x32x1.BroadcastsInDim S16384x32x64 (![0, 1, 2] : Fin 3 → Fin S16384x32x64.rank)
  bcast_S32_S1x32x1_1 : S32.BroadcastsInDim S1x32x1 (![1] : Fin 1 → Fin S1x32x1.rank)
  bcast_S1x32x1_S16384x32x64_0_1_2 : S1x32x1.BroadcastsInDim S16384x32x64 (![0, 1, 2] : Fin 3 → Fin S16384x32x64.rank)
  shapeCasts_S16384x32x64_S16384x2048 : S16384x32x64.ShapeCasts S16384x2048
  bcast_S_S16384x2048 : S_.BroadcastsInDim S16384x2048 (![] : Fin 0 → Fin S16384x2048.rank)
  reducesTo_S16384x2048_S16384_d1 : S16384x2048.ReducesTo [1] S16384
  bcast_S_S16384x1 : S_.BroadcastsInDim S16384x1 (![] : Fin 0 → Fin S16384x1.rank)
  bcast_S16384x1_S16384x2048_0_1 : S16384x1.BroadcastsInDim S16384x2048 (![0, 1] : Fin 2 → Fin S16384x2048.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  dot_S16384x320_S320x1024_S16384x1024_1_0_0_1_n_n_wf : DotDims.WF S16384x320 S320x1024 S16384x1024 [1] [0] [0] [1] [] []
  dot_S16384x1024_S1024x4256_S16384x4256_1_0_0_1_n_n_wf : DotDims.WF S16384x1024 S1024x4256 S16384x4256 [1] [0] [0] [1] [] []
  dot_S16384x2048_S2048x1024_S16384x1024_1_0_0_1_n_n_wf : DotDims.WF S16384x2048 S2048x1024 S16384x1024 [1] [0] [0] [1] [] []
  dot_S16384x1024_S1024x256_S16384x256_1_0_0_1_n_n_wf : DotDims.WF S16384x1024 S1024x256 S16384x256 [1] [0] [0] [1] [] []

variable [Facts₀]

def dot_S16384x320_S320x1024_S16384x1024_1_0_0_1_n_n : DotDims S16384x320 S320x1024 S16384x1024 where
  lhsContracting := [1]
  rhsContracting := [0]
  lhsNonContracting := [0]
  rhsNonContracting := [1]
  lhsBatch := []
  rhsBatch := []
  wf := dot_S16384x320_S320x1024_S16384x1024_1_0_0_1_n_n_wf
def dot_S16384x1024_S1024x4256_S16384x4256_1_0_0_1_n_n : DotDims S16384x1024 S1024x4256 S16384x4256 where
  lhsContracting := [1]
  rhsContracting := [0]
  lhsNonContracting := [0]
  rhsNonContracting := [1]
  lhsBatch := []
  rhsBatch := []
  wf := dot_S16384x1024_S1024x4256_S16384x4256_1_0_0_1_n_n_wf
def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf
def dot_S16384x1024_S1024x256_S16384x256_1_0_0_1_n_n : DotDims S16384x1024 S1024x256 S16384x256 where
  lhsContracting := [1]
  rhsContracting := [0]
  lhsNonContracting := [0]
  rhsNonContracting := [1]
  lhsBatch := []
  rhsBatch := []
  wf := dot_S16384x1024_S1024x256_S16384x256_1_0_0_1_n_n_wf

class Facts : Prop extends Facts₀ where

variable [Facts]
-- ==== Proof.Spec.lean ====
/-
  One row of the model, as mathematics on the extended reals.

  A row s of the joined input (320 entries) goes through two affine maps (a hidden vector of 1024 entries, then a
  mixed vector of 4256 entries).  The mixed vector is read in three stretches: the gate z (2048 columns), the
  convolved channels (2176 columns: 2048 of x, 64 of B, 64 of C) and the step sizes (32 columns, one per head).
  The channels pass silu(v * cw + cb); the steps pass softplus(v + dtb).  With a zero initial state and one time step the
  selective scan collapses to  y[j] = x[j] * (dt[head j] * <B, C>) + D[head j] * x[j],  head j = j / 64.  Then the gated
  root-mean-square normalisation and two more linear maps.

  The scan line is stated in three arrangements: as the sum of two products (scanSumOf), with the common factor x[j]
  taken out (scanFusedOf), and with the head's step picked out of the 32 steps by a sum against a 0/1 matrix
  (scanPickedOf).  On the extended reals the factor may be taken out when x[j] and D are real numbers, which
  they are when every input is: a real times (a + d) is the real times a plus the real times d for EVERY extended
  real a, infinite ones included.  The sum against the 0/1 matrix picks its one term on all extended reals
  (a * 0 = 0 and a * 1 = a there).
-/
import Idealize.ShloMosaic.PureOps.Ideal
import Idealize.ShloMosaic.PureOps.Ideal.Laws
import Idealize.ShloMosaic.Lib.ValueIdx

noncomputable section

namespace Cert.SsmRow

open Idealize.ShloMosaic Idealize.ShloMosaic.ValueIdx

/-! ## Columns, channels, heads -/

/-- Gate column j of the mixed vector. -/
def colZ (j : Fin 2048) : Fin 4256 := ⟨j.val, by have := j.isLt; omega⟩
/-- Column of the mixed vector feeding convolved channel j. -/
def colX (j : Fin 2176) : Fin 4256 := ⟨2048 + j.val, by have := j.isLt; omega⟩
/-- Column of the mixed vector feeding head h's step size. -/
def colDt (h : Fin 32) : Fin 4256 := ⟨4224 + h.val, by have := h.isLt; omega⟩
/-- Channel j of x among the convolved channels. -/
def chX (j : Fin 2048) : Fin 2176 := ⟨j.val, by have := j.isLt; omega⟩
/-- Channel l of B. -/
def chB (l : Fin 64) : Fin 2176 := ⟨2048 + l.val, by have := l.isLt; omega⟩
/-- Channel l of C. -/
def chC (l : Fin 64) : Fin 2176 := ⟨2112 + l.val, by have := l.isLt; omega⟩
/-- The head a channel of x belongs to: 64 channels a head. -/
def head (j : Fin 2048) : Fin 32 := ⟨j.val / 64, by have := j.isLt; omega⟩

/-! ## Scalars -/

/-- The divisor of the mean, 2048, as the programs write it. -/
def c2048 : EReal := Ideal.ofBits .f32 0x45000000#32
/-- The normalisation's epsilon, as the programs write it. -/
def ceps : EReal := Ideal.ofBits .f32 0x3727C5AC#32

/-- v * 1/(1 + e^(-v)). -/
def silu (v : EReal) : EReal := v * Ideal.logistic v
/-- max(v, 0) + log(1 + e^(-|v|)). -/
def softplus (v : EReal) : EReal := max v 0 + Ideal.log1p (Ideal.exp (-(max v (-v))))

/-! ## The stages, over plain functions -/

def hiddenOf (s : Fin 320 → EReal) (win : Fin 320 → Fin 1024 → EReal) (bin : Fin 1024 → EReal) (k : Fin 1024) : EReal :=
  (∑ l : Fin 320, s l * win l k) + bin k
def mixedOf (s : Fin 320 → EReal) (win : Fin 320 → Fin 1024 → EReal) (bin : Fin 1024 → EReal)
    (wip : Fin 1024 → Fin 4256 → EReal) (j : Fin 4256) : EReal :=
  ∑ k : Fin 1024, hiddenOf s win bin k * wip k j
def convOf (mx : Fin 4256 → EReal) (cw cb : Fin 2176 → EReal) (j : Fin 2176) : EReal := silu (mx (colX j) * cw j + cb j)
def stepOf (mx : Fin 4256 → EReal) (dtb : Fin 32 → EReal) (h : Fin 32) : EReal := softplus (mx (colDt h) + dtb h)
/-- The inner product of the B and C channels. -/
def dotBC (cv : Fin 2176 → EReal) : EReal := ∑ l : Fin 64, cv (chB l) * cv (chC l)
/-- The collapsed scan as a sum of two products. -/
def scanSumOf (cv : Fin 2176 → EReal) (dt : Fin 32 → EReal) (dsk : Fin 2048 → EReal) (j : Fin 2048) : EReal :=
  cv (chX j) * (dt (head j) * dotBC cv) + dsk j * cv (chX j)
/-- The collapsed scan with the channel taken out as a common factor. -/
def scanFusedOf (cv : Fin 2176 → EReal) (dt : Fin 32 → EReal) (dsk : Fin 2048 → EReal) (j : Fin 2048) : EReal :=
  cv (chX j) * (dt (head j) * dotBC cv + dsk j)
/-- The fused line with the head's scaled step picked out of the 32 by a sum against a matrix R. -/
def scanPickedOf (x : Fin 2048 → EReal) (B C : Fin 64 → EReal) (dt : Fin 32 → EReal) (R : Fin 32 → Fin 2048 → EReal)
    (dsk : Fin 2048 → EReal) (j : Fin 2048) : EReal :=
  x j * ((∑ h : Fin 32, (dt h * ∑ l : Fin 64, B l * C l) * R h j) + dsk j)
def gatedBy (z y : Fin 2048 → EReal) (j : Fin 2048) : EReal := y j * silu (z j)
def normedBy (nw : Fin 2048 → EReal) (g : Fin 2048 → EReal) (j : Fin 2048) : EReal :=
  g j * Ideal.rsqrt (Ideal.div (∑ j' : Fin 2048, g j' * g j') c2048 + ceps) * nw j
def proj1Of (wop : Fin 2048 → Fin 1024 → EReal) (n : Fin 2048 → EReal) (k : Fin 1024) : EReal := ∑ j : Fin 2048, n j * wop j k
def proj2Of (wo : Fin 1024 → Fin 256 → EReal) (bo : Fin 256 → EReal) (o : Fin 1024 → EReal) (c : Fin 256) : EReal :=
  (∑ k : Fin 1024, o k * wo k c) + bo c
/-- From the gate z and the scan line y to the row's 256 results. -/
def tailOf (nw : Fin 2048 → EReal) (wop : Fin 2048 → Fin 1024 → EReal) (wo : Fin 1024 → Fin 256 → EReal) (bo : Fin 256 → EReal)
    (z y : Fin 2048 → EReal) : Fin 256 → EReal :=
  proj2Of wo bo (proj1Of wop (normedBy nw (gatedBy z y)))

/-- The sum against the 0/1 matrix of heads picks the channel's own head. -/
theorem scanPickedOf_heads (cv : Fin 2176 → EReal) (dt : Fin 32 → EReal) (R : Fin 32 → Fin 2048 → EReal) (dsk : Fin 2048 → EReal)
    (hR : ∀ h j, R h j = if h = head j then 1 else 0) :
    scanPickedOf (fun j => cv (chX j)) (fun l => cv (chB l)) (fun l => cv (chC l)) dt R dsk = scanFusedOf cv dt dsk := by
  funext j
  unfold scanPickedOf scanFusedOf dotBC
  congr 2
  rw [Finset.sum_eq_single (head j)]
  · rw [hR, if_pos rfl, mul_one]
  · intro h _ hne; rw [hR, if_neg hne, mul_zero]
  · intro h; exact absurd (Finset.mem_univ _) h

/-! ## The weights, bundled -/

/-- Everything but the input row. dsk is the skip weight D spread over each head's 64 channels. -/
structure Weights where
  win : Fin 320 → Fin 1024 → EReal
  bin : Fin 1024 → EReal
  wip : Fin 1024 → Fin 4256 → EReal
  cw : Fin 2176 → EReal
  cb : Fin 2176 → EReal
  dtb : Fin 32 → EReal
  dsk : Fin 2048 → EReal
  nw : Fin 2048 → EReal
  wop : Fin 2048 → Fin 1024 → EReal
  wo : Fin 1024 → Fin 256 → EReal
  bo : Fin 256 → EReal

variable (W : Weights) (s : Fin 320 → EReal)

def mixed : Fin 4256 → EReal := mixedOf s W.win W.bin W.wip
def conv : Fin 2176 → EReal := convOf (mixed W s) W.cw W.cb
def step : Fin 32 → EReal := stepOf (mixed W s) W.dtb
def scanSum : Fin 2048 → EReal := scanSumOf (conv W s) (step W s) W.dsk
def scanFused : Fin 2048 → EReal := scanFusedOf (conv W s) (step W s) W.dsk
/-- The row's 256 results from the scan line y. -/
def rowOut (y : Fin 2048 → EReal) : Fin 256 → EReal := tailOf W.nw W.wop W.wo W.bo (fun j => mixed W s (colZ j)) y

/-! ## Real numbers among the extended reals -/

/-- x is a real number (neither infinity). -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type} (t : Finset ι) (f : ι → EReal) (h : ∀ i, IsReal (f i)) : IsReal (∑ i ∈ t, f i) := by
  classical
  induction t using Finset.induction_on with
  | empty => exact ⟨0, by simp⟩
  | insert a t ha ih => rw [Finset.sum_insert ha]; exact (h a).add ih

theorem IsReal.silu {x : EReal} (hx : IsReal x) : IsReal (silu x) := by
  obtain ⟨a, rfl⟩ := hx
  exact IsReal.mul ⟨a, rfl⟩ ⟨_, Ideal.logistic_coe (r := a)⟩

/-- A real factor distributes over a sum whose second term is real, whatever the first term. -/
theorem real_mul_add (r d : ℝ) (a : EReal) : (r : EReal) * (a + (d : EReal)) = (r : EReal) * a + (d : EReal) * (r : EReal) := by
  induction a using EReal.rec with
  | coe x => rw [← EReal.coe_add, ← EReal.coe_mul, ← EReal.coe_mul, ← EReal.coe_mul, ← EReal.coe_add]; congr 1; ring
  | bot =>
    rw [EReal.bot_add, ← EReal.coe_mul]
    rcases lt_trichotomy r 0 with h | h | h
    · rw [EReal.coe_mul_bot_of_neg h, EReal.top_add_coe]
    · subst h; simp
    · rw [EReal.coe_mul_bot_of_pos h, EReal.bot_add]
  | top =>
    rw [EReal.top_add_coe, ← EReal.coe_mul]
    rcases lt_trichotomy r 0 with h | h | h
    · rw [EReal.coe_mul_top_of_neg h, EReal.bot_add]
    · subst h; simp
    · rw [EReal.coe_mul_top_of_pos h, EReal.top_add_coe]

/-! ## The convolved channels are real when the inputs are; the two scan lines then agree -/

/-- The weights the channels depend on, and the skip weight, are real numbers. -/
structure Weights.RealUpToConv (W : Weights) : Prop where
  win : ∀ l k, IsReal (W.win l k)
  bin : ∀ k, IsReal (W.bin k)
  wip : ∀ k j, IsReal (W.wip k j)
  cw : ∀ j, IsReal (W.cw j)
  cb : ∀ j, IsReal (W.cb j)
  dsk : ∀ j, IsReal (W.dsk j)

variable {W s}

theorem mixed_real (hW : W.RealUpToConv) (hs : ∀ l, IsReal (s l)) (j : Fin 4256) : IsReal (mixed W s j) := by
  unfold mixed mixedOf hiddenOf
  exact IsReal.sum _ _ fun k => ((IsReal.sum _ _ fun l => (hs l).mul (hW.win l k)).add (hW.bin k)).mul (hW.wip k j)

theorem conv_real (hW : W.RealUpToConv) (hs : ∀ l, IsReal (s l)) (j : Fin 2176) : IsReal (conv W s j) := by
  unfold conv convOf
  exact (((mixed_real hW hs (colX j)).mul (hW.cw j)).add (hW.cb j)).silu

/-- With real inputs the common factor may be taken out of the scan line. -/
theorem scanFused_eq_scanSum (hW : W.RealUpToConv) (hs : ∀ l, IsReal (s l)) : scanFused W s = scanSum W s := by
  funext j
  obtain ⟨r, hr⟩ := conv_real hW hs (chX j)
  obtain ⟨d, hd⟩ := hW.dsk j
  unfold scanFused scanSum scanFusedOf scanSumOf
  rw [hr, hd]
  exact real_mul_add r d _

/-! ## The arrays -/

abbrev Arr2 (a b : ℕ) : Type := (⟨2, ![a, b]⟩ : Shape).Idx → EReal
abbrev Arr1 (a : ℕ) : Type := (⟨1, ![a]⟩ : Shape).Idx → EReal

/-- Row r of the two input arrays joined along their columns: 256 columns of the first, then 64 of the second. -/
def joined (a0 : Arr2 16384 256) (a1 : Arr2 16384 64) (r : Fin 16384) (l : Fin 320) : EReal :=
  if h : l.val < 256 then a0 (ix2 r ⟨l.val, h⟩) else a1 (ix2 r ⟨l.val - 256, by have := l.isLt; omega⟩)

/-- The weights as the argument arrays hold them: the convolution's last tap (column 3 of four), and the skip weight of
    a channel's head. -/
def weights (a2 : Arr2 320 1024) (a3 : Arr1 1024) (a4 : Arr2 1024 4256) (a5 : Arr2 2176 4) (a6 : Arr1 2176) (a7 : Arr1 32)
    (a9 : Arr1 32) (a10 : Arr1 2048) (a11 : Arr2 2048 1024) (a12 : Arr2 1024 256) (a13 : Arr1 256) : Weights where
  win := fun l k => a2 (ix2 l k)
  bin := fun k => a3 (ix1 k)
  wip := fun k j => a4 (ix2 k j)
  cw := fun j => a5 (ix2 j (3 : Fin 4))
  cb := fun j => a6 (ix1 j)
  dtb := fun h => a7 (ix1 h)
  dsk := fun j => a9 (ix1 (head j))
  nw := fun j => a10 (ix1 j)
  wop := fun j k => a11 (ix2 j k)
  wo := fun k c => a12 (ix2 k c)
  bo := fun c => a13 (ix1 c)

/-- The whole result array, the scan line as a sum of two products. -/
def result (a0 : Arr2 16384 256) (a1 : Arr2 16384 64) (a2 : Arr2 320 1024) (a3 : Arr1 1024) (a4 : Arr2 1024 4256) (a5 : Arr2 2176 4)
    (a6 : Arr1 2176) (a7 : Arr1 32) (a9 : Arr1 32) (a10 : Arr1 2048) (a11 : Arr2 2048 1024) (a12 : Arr2 1024 256) (a13 : Arr1 256) :
    Arr2 16384 256 := fun i =>
  rowOut (weights a2 a3 a4 a5 a6 a7 a9 a10 a11 a12 a13) (joined a0 a1 (i 0))
    (scanSum (weights a2 a3 a4 a5 a6 a7 a9 a10 a11 a12 a13) (joined a0 a1 (i 0))) (i 1)

/-- The whole result array, the scan line with the common factor taken out. -/
def resultFused (a0 : Arr2 16384 256) (a1 : Arr2 16384 64) (a2 : Arr2 320 1024) (a3 : Arr1 1024) (a4 : Arr2 1024 4256) (a5 : Arr2 2176 4)
    (a6 : Arr1 2176) (a7 : Arr1 32) (a9 : Arr1 32) (a10 : Arr1 2048) (a11 : Arr2 2048 1024) (a12 : Arr2 1024 256) (a13 : Arr1 256) :
    Arr2 16384 256 := fun i =>
  rowOut (weights a2 a3 a4 a5 a6 a7 a9 a10 a11 a12 a13) (joined a0 a1 (i 0))
    (scanFused (weights a2 a3 a4 a5 a6 a7 a9 a10 a11 a12 a13) (joined a0 a1 (i 0))) (i 1)

/-- With every entry of the arrays the channels depend on a real number, the two arrangements are one array. -/
theorem resultFused_eq_result (a0 : Arr2 16384 256) (a1 : Arr2 16384 64) (a2 : Arr2 320 1024) (a3 : Arr1 1024) (a4 : Arr2 1024 4256)
    (a5 : Arr2 2176 4) (a6 : Arr1 2176) (a7 : Arr1 32) (a9 : Arr1 32) (a10 : Arr1 2048) (a11 : Arr2 2048 1024) (a12 : Arr2 1024 256)
    (a13 : Arr1 256) (h0 : ∀ i, IsReal (a0 i)) (h1 : ∀ i, IsReal (a1 i)) (h2 : ∀ i, IsReal (a2 i)) (h3 : ∀ i, IsReal (a3 i))
    (h4 : ∀ i, IsReal (a4 i)) (h5 : ∀ i, IsReal (a5 i)) (h6 : ∀ i, IsReal (a6 i)) (h9 : ∀ i, IsReal (a9 i)) :
    resultFused a0 a1 a2 a3 a4 a5 a6 a7 a9 a10 a11 a12 a13 = result a0 a1 a2 a3 a4 a5 a6 a7 a9 a10 a11 a12 a13 := by
  funext i
  unfold resultFused result
  rw [scanFused_eq_scanSum (W := weights a2 a3 a4 a5 a6 a7 a9 a10 a11 a12 a13)
    ⟨fun l k => h2 _, fun k => h3 _, fun k j => h4 _, fun j => h5 _, fun j => h6 _, fun j => h9 _⟩
    (fun l => by unfold joined; split <;> [exact h0 _; exact h1 _])]

/-- The weights as one grid point's blocks hold them (each weight's block is its whole array, vectors as one-row
    matrices). -/
def blockWeights (x1 : Arr2 320 1024) (x2 : Arr2 1 1024) (x3 : Arr2 1024 4256) (x4 x5 : Arr2 1 2176) (x6 : Arr2 1 32)
    (x7 : Arr2 1 2048) (x9 : Arr2 1 2048) (x10 : Arr2 2048 1024) (x11 : Arr2 1024 256) (x12 : Arr2 1 256) : Weights where
  win := fun l k => x1 (ix2 l k)
  bin := fun k => x2 (ix2 (0 : Fin 1) k)
  wip := fun k j => x3 (ix2 k j)
  cw := fun j => x4 (ix2 (0 : Fin 1) j)
  cb := fun j => x5 (ix2 (0 : Fin 1) j)
  dtb := fun h => x6 (ix2 (0 : Fin 1) h)
  dsk := fun j => x7 (ix2 (0 : Fin 1) j)
  nw := fun j => x9 (ix2 (0 : Fin 1) j)
  wop := fun j k => x10 (ix2 j k)
  wo := fun k c => x11 (ix2 k c)
  bo := fun c => x12 (ix2 (0 : Fin 1) c)

end Cert.SsmRow

end
-- ==== Proof.Finite.lean ====
/-
  The precondition says every entry of every float input is finite; on the extended reals that is: every entry is a real
  number.  Read off the printed predicate (a conjunction of fourteen "all |x| < +inf" tests), for the eight arrays the
  convolved channels and the skip weight depend on.
-/
import proofs.«150620_j17403207483676_1_alg».proof.Pre_finite_inputs
import proofs.«150620_j17403207483676_1_alg».proof.Proof.Gen.Pre_finite_inputs
import proofs.«150620_j17403207483676_1_alg».proof.Proof.Spec
import Idealize.ShloMosaic.Lib.ReduceAll

noncomputable section

namespace Cert.Pre_finite_inputs.Finite

open Cert.Pre_finite_inputs Cert.Pre_finite_inputs.Gen Idealize.ShloMosaic Idealize.ShloMosaic.ValueIdx Cert.SsmRow

/-- The rank-zero shape has exactly one index. -/
instance subsingleton_scalar_idx : Subsingleton S_.Idx := ⟨fun a b => funext fun d => d.elim0⟩

/-- The word `0x7F800000` denotes `+∞`. -/
theorem ofBits_pos_inf : Ideal.ofBits .f32 0x7F800000#32 = (⊤ : EReal) := by
  simp [Ideal.ofBits, Ideal.ieee]

/-- An extended real whose absolute value `max x (-x)` lies strictly below `+∞` is a real number. -/
theorem isReal_of_abs_lt_top (x : EReal) (h : max x (-x) < ⊤) : IsReal x := by
  induction x using EReal.rec with
  | bot => simp at h
  | top => simp at h
  | coe r => exact ⟨r, rfl⟩

/-- One conjunct of the predicate: if "all |x| < +∞" came out 1, every entry of `x` is a real number. -/
theorem real_of_lt_top {s : Shape} {axes : List (Fin s.rank)} (x : FVec Ideal s .f32)
    (hb : S_.BroadcastsInDim s (![] : Fin 0 → Fin s.rank)) (hr : s.ReducesTo axes S_) (h0 : 0 < S_.numel)
    (h : Host.reduce IntOp.andi
        (cmpf .olt (Host.absf x) (broadcastInDim s ![] hb (constant (F := Ideal) S_ .f32 0x7F800000#32)))
        (constantI S_ 1 1#1) hr h0 ix0 = 1#1) :
    ∀ i, IsReal (x i) := by
  intro i
  have e := Host.reduce_andi_all _ _ hr h0 ix0 h i
  have e' : Ideal.cmp .olt (max (x i) (-(x i))) (Ideal.ofBits .f32 0x7F800000#32) = 1#1 := e
  rw [ofBits_pos_inf] at e'
  refine isReal_of_abs_lt_top (x i) ?_
  by_contra hn
  simp [Ideal.cmp, hn] at e'

/-- A conjunction of two scalar bits that is 1 has both bits 1. -/
theorem andi_scalar {a b : IVec S_ 1} (h : andi a b ix0 = 1#1) : a ix0 = 1#1 ∧ b ix0 = 1#1 :=
  IntOp.andi_eq_one.1 h

/-- Where the printed predicate is all ones, the entries of the first seven arrays and of the tenth are real numbers. -/
theorem real_of_fn (a0 : FVec Ideal S16384x256 .f32) (a1 : FVec Ideal S16384x64 .f32) (a2 : FVec Ideal S320x1024 .f32)
    (a3 : FVec Ideal S1024 .f32) (a4 : FVec Ideal S1024x4256 .f32) (a5 : FVec Ideal S2176x4 .f32) (a6 : FVec Ideal S2176 .f32)
    (a7 a8 a9 : FVec Ideal S32 .f32) (a10 : FVec Ideal S2048 .f32) (a11 : FVec Ideal S2048x1024 .f32)
    (a12 : FVec Ideal S1024x256 .f32) (a13 : FVec Ideal S256 .f32)
    (h : fn (F := Ideal) a0 a1 a2 a3 a4 a5 a6 a7 a8 a9 a10 a11 a12 a13 = (fun _ => 1#1)) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a9 i)) := by
  have c13 := congrFun h ix0
  dsimp only [fn, fn_part1, fn_part2, fn_part3, fn_part4] at c13
  -- the fourteen tests are chained to the left, ((((t0 ∧ t1) ∧ t2) ∧ …) ∧ t13): take the last one off, thirteen times
  obtain ⟨c12, -⟩ := andi_scalar c13
  obtain ⟨c11, -⟩ := andi_scalar c12
  obtain ⟨c10, -⟩ := andi_scalar c11
  obtain ⟨c9, -⟩ := andi_scalar c10
  obtain ⟨c8, k9⟩ := andi_scalar c9
  obtain ⟨c7, -⟩ := andi_scalar c8
  obtain ⟨c6, -⟩ := andi_scalar c7
  obtain ⟨c5, k6⟩ := andi_scalar c6
  obtain ⟨c4, k5⟩ := andi_scalar c5
  obtain ⟨c3, k4⟩ := andi_scalar c4
  obtain ⟨c2, k3⟩ := andi_scalar c3
  obtain ⟨c1, k2⟩ := andi_scalar c2
  obtain ⟨k0, k1⟩ := andi_scalar c1
  exact ⟨real_of_lt_top a0 _ _ _ k0, real_of_lt_top a1 _ _ _ k1, real_of_lt_top a2 _ _ _ k2, real_of_lt_top a3 _ _ _ k3,
    real_of_lt_top a4 _ _ _ k4, real_of_lt_top a5 _ _ _ k5, real_of_lt_top a6 _ _ _ k6, real_of_lt_top a9 _ _ _ k9⟩

end Cert.Pre_finite_inputs.Finite

end
-- ==== Proof.RefValue.lean ====
/-
  The reference program's result array is the row function of Spec.lean applied row by row.

  Each stage of the reference is read at explicit coordinates (row r, column j) and identified with the
  corresponding function of the specification applied to row r of the joined input.
-/
import proofs.«150620_j17403207483676_1_alg».proof.Proof.Gen.ReferenceIdeal.Read
import proofs.«150620_j17403207483676_1_alg».proof.Proof.Spec
import Idealize.ShloMosaic.Lib.ValueLayout
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx

section Stages

variable (x0 : (⟨S16384x256, .f32⟩ : BufTy).Contents (Elt Ideal)) (x1 : (⟨S16384x64, .f32⟩ : BufTy).Contents (Elt Ideal))
    (x2 : (⟨S320x1024, .f32⟩ : BufTy).Contents (Elt Ideal)) (x3 : (⟨S1024, .f32⟩ : BufTy).Contents (Elt Ideal))
    (x4 : (⟨S1024x4256, .f32⟩ : BufTy).Contents (Elt Ideal)) (x5 : (⟨S2176x4, .f32⟩ : BufTy).Contents (Elt Ideal))
    (x6 : (⟨S2176, .f32⟩ : BufTy).Contents (Elt Ideal)) (x7 x9 : (⟨S32, .f32⟩ : BufTy).Contents (Elt Ideal))
    (x10 : (⟨S2048, .f32⟩ : BufTy).Contents (Elt Ideal)) (x11 : (⟨S2048x1024, .f32⟩ : BufTy).Contents (Elt Ideal))
    (x12 : (⟨S1024x256, .f32⟩ : BufTy).Contents (Elt Ideal)) (x13 : (⟨S256, .f32⟩ : BufTy).Contents (Elt Ideal))

/-- The weights held by the argument arrays. -/
local notation "𝐖" => SsmRow.weights x2 x3 x4 x5 x6 x7 x9 x10 x11 x12 x13
/-- The rows of the joined input. -/
local notation "𝐬" => SsmRow.joined x0 x1

/-- Two rank-1 indices with the same coordinate are one index. -/
local macro "idx1" : tactic => `(tactic| (funext a; match a with | ⟨0, _⟩ => rfl))
/-- Two rank-2 indices with the same coordinates are one index. -/
local macro "idx2" : tactic => `(tactic| (funext a; match a with | ⟨0, _⟩ => rfl | ⟨1, _⟩ => rfl))

/-! ## The joined input and the two affine maps -/

/-- The concatenation along the columns reads the first array below column 256 and the second from there on. -/
theorem v0_at (r : Fin 16384) (l : Fin 320) :
    val_main_v0 (F := Ideal) x0 x1 (ix2 r l) = 𝐬 r l := by
  unfold val_main_v0 SsmRow.joined
  split
  · next h =>
    exact concatenate_pair_apply_left (t := S16384x320) (s₁ := S16384x256) (s₂ := S16384x64) 1 x0 x1
      concatenates_S16384x256_S16384x64_S16384x320_d1 (ix2 r l) rfl (ix2 r ⟨l.val, h⟩) (fun b => by
      match b with
      | ⟨0, _⟩ => rfl
      | ⟨1, _⟩ => rfl)
  · next h =>
    exact concatenate_pair_apply_right (t := S16384x320) (s₁ := S16384x256) (s₂ := S16384x64) 1 x0 x1
      concatenates_S16384x256_S16384x64_S16384x320_d1 (ix2 r l) rfl rfl
      (ix2 r ⟨l.val - 256, by have := l.isLt; omega⟩)
      (fun b hb => by
        match b with
        | ⟨0, _⟩ => rfl
        | ⟨1, _⟩ => exact absurd rfl hb)
      (by show l.val - 256 + 256 = l.val; omega)

/-- The hidden vector of row r. -/
theorem v4_at (r : Fin 16384) (k : Fin 1024) :
    val_main_v4 (F := Ideal) x0 x1 x2 x3 (ix2 r k) = SsmRow.hiddenOf (𝐬 r) 𝐖.win 𝐖.bin k := by
  rw [val_main_v4_apply, val_main_v1_apply, val_main_v3_apply, val_main_v2_apply,
    show idx_main_v2 (idx_main_v3 (ix2 r k)) = ix1 k by idx1]
  unfold SsmRow.hiddenOf
  refine congrArg (· + x3 (ix1 k)) (Finset.sum_congr rfl fun l _ => ?_)
  rw [show lidx_main_v1 (ix2 r k) l = ix2 r l by idx2, show ridx_main_v1 (ix2 r k) l = ix2 l k by idx2, v0_at]
  rfl

/-- The mixed vector of row r. -/
theorem v5_at (r : Fin 16384) (j : Fin 4256) :
    val_main_v5 (F := Ideal) x0 x1 x2 x3 x4 (ix2 r j) = SsmRow.mixed 𝐖 (𝐬 r) j := by
  rw [val_main_v5_apply]
  unfold SsmRow.mixed SsmRow.mixedOf
  refine Finset.sum_congr rfl fun k _ => ?_
  rw [show lidx_main_v5 (ix2 r j) k = ix2 r k by idx2, show ridx_main_v5 (ix2 r j) k = ix2 k j by idx2,
    v4_at x0 x1 x2 x3 x4 x5 x6 x7 x9 x10 x11 x12 x13]
  rfl

/-! ## The convolved channels and the step sizes -/

/-- The last tap of channel j's convolution weights, through the slice, the reshape and the two broadcasts. -/
theorem cw_idx (r : Fin 16384) (j : Fin 2176) :
    idx_main_v9 (idx_main_v10 (idx_main_v11 (idx_main_v12 (ix2 r j)))) = ix2 j (3 : Fin 4) := by
  funext a
  match a with
  | ⟨0, _⟩ => exact Fin.ext (show j.val / 1 = j.val from Nat.div_one _)
  | ⟨1, _⟩ => rfl

/-- The channel's argument: the mixed vector's column times the tap plus the bias. -/
theorem v16_at (r : Fin 16384) (j : Fin 2176) :
    val_main_v16 (F := Ideal) x0 x1 x2 x3 x4 x5 x6 (ix2 r j)
      = SsmRow.mixed 𝐖 (𝐬 r) (SsmRow.colX j) * 𝐖.cw j + 𝐖.cb j := by
  rw [val_main_v16_apply, val_main_v13_apply, val_main_v7_apply, val_main_v12_apply, val_main_v11_apply,
    val_main_v10_apply, val_main_v9_apply, val_main_v15_apply, val_main_v14_apply, cw_idx,
    show idx_main_v7 (ix2 r j) = ix2 r (SsmRow.colX j) by idx2,
    show idx_main_v14 (idx_main_v15 (ix2 r j)) = ix1 j by idx1,
    v5_at x0 x1 x2 x3 x4 x5 x6 x7 x9 x10 x11 x12 x13]
  rfl

/-- The host's x * (1 / (1 + e^(-x))) is the specification's silu. -/
theorem silu_host (v : EReal) :
    FloatOps.mulf (F := Ideal) (φ := .f32) v (FloatOps.hostDivf (F := Ideal) (φ := .f32) (FloatOps.ofBits (F := Ideal) .f32 0x3F800000#32)
      (FloatOps.addf (F := Ideal) (φ := .f32) (FloatOps.ofBits (F := Ideal) .f32 0x3F800000#32)
        (FloatOps.hostUnary (F := Ideal) (φ := .f32) .exp (FloatOps.hostNegf (F := Ideal) (φ := .f32) v)))) = SsmRow.silu v := by
  show v * Ideal.div (Ideal.ofBits .f32 0x3F800000#32) (Ideal.ofBits .f32 0x3F800000#32 + Ideal.exp (-v)) = v * Ideal.logistic v
  rw [Ideal.ofBits_one_f32]
  rfl

/-- The convolved channels of row r. -/
theorem v17_at (r : Fin 16384) (j : Fin 2176) :
    val_main_v17 (F := Ideal) x0 x1 x2 x3 x4 x5 x6 (ix2 r j) = SsmRow.conv 𝐖 (𝐬 r) j := by
  rw [val_main_v17_apply, val_main_call0_v5_apply, val_main_call0_v4_apply, val_main_call0_cst_0_apply,
    val_main_call0_v3_apply, val_main_call0_v2_apply, val_main_call0_cst_apply, val_main_call0_v1_apply,
    val_main_call0_v0_apply, silu_host, v16_at x0 x1 x2 x3 x4 x5 x6 x7 x9 x10 x11 x12 x13]
  rfl

/-- The step's argument: the mixed vector's column plus the bias. -/
theorem v23_at (r : Fin 16384) (h : Fin 32) :
    val_main_v23 (F := Ideal) x0 x1 x2 x3 x4 x7 (ix2 r h) = SsmRow.mixed 𝐖 (𝐬 r) (SsmRow.colDt h) + 𝐖.dtb h := by
  rw [val_main_v23_apply, val_main_v8_apply, val_main_v22_apply, val_main_v21_apply,
    show idx_main_v8 (ix2 r h) = ix2 r (SsmRow.colDt h) by idx2,
    show idx_main_v21 (idx_main_v22 (ix2 r h)) = ix1 h by idx1,
    v5_at x0 x1 x2 x3 x4 x5 x6 x7 x9 x10 x11 x12 x13]
  rfl

/-- An extended real is not different from itself. -/
theorem cmp_une_self (v : EReal) : Ideal.cmp .une v v = 0#1 := by
  unfold Ideal.cmp
  simp

/-- The host's guarded softplus is the specification's: the guard compares a value with itself. -/
theorem softplus_host (v : EReal) :
    Scalar.select (FloatOps.cmpf (F := Ideal) (φ := .f32) .une
        (FloatOps.subf (F := Ideal) (φ := .f32) v (FloatOps.ofBits (F := Ideal) .f32 0x00000000#32))
        (FloatOps.subf (F := Ideal) (φ := .f32) v (FloatOps.ofBits (F := Ideal) .f32 0x00000000#32)))
      (FloatOps.addf (F := Ideal) (φ := .f32) v (FloatOps.ofBits (F := Ideal) .f32 0x00000000#32))
      (FloatOps.addf (F := Ideal) (φ := .f32)
        (FloatOps.maximumf (F := Ideal) (φ := .f32) v (FloatOps.ofBits (F := Ideal) .f32 0x00000000#32))
        (FloatOps.hostUnary (F := Ideal) (φ := .f32) .log1p (FloatOps.hostUnary (F := Ideal) (φ := .f32) .exp
          (FloatOps.hostNegf (F := Ideal) (φ := .f32) (FloatOps.hostAbsf (F := Ideal) (φ := .f32)
            (FloatOps.subf (F := Ideal) (φ := .f32) v (FloatOps.ofBits (F := Ideal) .f32 0x00000000#32)))))))
      = SsmRow.softplus v := by
  rw [Ideal.cmpf_def, cmp_une_self, select_zero]
  show max v (Ideal.ofBits .f32 0x00000000#32)
    + Ideal.log1p (Ideal.exp (-(max (v - Ideal.ofBits .f32 0x00000000#32) (-(v - Ideal.ofBits .f32 0x00000000#32)))))
    = SsmRow.softplus v
  rw [Ideal.ofBits_zero_f32, sub_zero]
  rfl

/-- The step sizes of row r. -/
theorem v24_at (r : Fin 16384) (h : Fin 32) :
    val_main_v24 (F := Ideal) x0 x1 x2 x3 x4 x7 (ix2 r h) = SsmRow.step 𝐖 (𝐬 r) h := by
  rw [val_main_v24_apply, val_main_call1_v4_apply, val_main_call1_v3_apply, val_main_call1_v2_apply,
    val_main_call1_cst_apply, val_main_call1_v6_apply, val_main_call1_v5_apply, val_main_call1_cst_apply,
    val_main_call1_v11_apply, val_main_call1_v1_apply, val_main_call1_v0_apply, val_main_call1_cst_apply,
    val_main_call1_v10_apply, val_main_call1_v9_apply, val_main_call1_v8_apply, val_main_call1_v7_apply,
    val_main_call1_v3_apply, val_main_call1_v2_apply, val_main_call1_cst_apply,
    softplus_host, v23_at x0 x1 x2 x3 x4 x5 x6 x7 x9 x10 x11 x12 x13]
  rfl

/-! ## The scan line -/

/-- The inner product of the B and C channels of row r. -/
theorem v27_at (r : Fin 16384) :
    val_main_v27 (F := Ideal) x0 x1 x2 x3 x4 x5 x6 (ix1 r) = SsmRow.dotBC (SsmRow.conv 𝐖 (𝐬 r)) := by
  rw [val_main_v27_apply, val_main_cst_apply]
  show Ideal.ofBits .f32 0x00000000#32 + _ = _
  rw [Ideal.ofBits_zero_f32, zero_add]
  unfold SsmRow.dotBC
  refine Finset.sum_congr rfl fun l _ => ?_
  rw [val_main_v26_apply, val_main_v19_apply, val_main_v20_apply,
    show idx_main_v19 (idx_main_v27 (ix1 r) l) = ix2 r (SsmRow.chB l) by idx2,
    show idx_main_v20 (idx_main_v27 (ix1 r) l) = ix2 r (SsmRow.chC l) by idx2,
    v17_at x0 x1 x2 x3 x4 x5 x6 x7 x9 x10 x11 x12 x13, v17_at x0 x1 x2 x3 x4 x5 x6 x7 x9 x10 x11 x12 x13]
  rfl

/-- Column j of a row of 2048 is entry j % 64 of head j / 64 in the row's 32 by 64 arrangement. -/
theorem split_idx (r : Fin 16384) (j : Fin 2048) :
    idx_main_v38 (ix2 r j) = ix3 r (SsmRow.head j) (⟨j.val % 64, Nat.mod_lt _ (by decide)⟩ : Fin 64) := by
  funext a
  match a with
  | ⟨0, _⟩ => exact Fin.ext (show (r.val * 2048 + j.val) / 2048 = r.val by have := j.isLt; omega)
  | ⟨1, _⟩ => exact Fin.ext (show (r.val * 2048 + j.val) / 64 % 32 = j.val / 64 by have := j.isLt; omega)
  | ⟨2, _⟩ => exact Fin.ext (show (r.val * 2048 + j.val) % 64 = j.val % 64 by omega)

/-- Entry j % 64 of head j / 64 in the 32 by 64 arrangement is column j of the row of 2048. -/
theorem merge_idx (r : Fin 16384) (j : Fin 2048) :
    idx_main_v18 (idx_main_v25 (ix3 r (SsmRow.head j) (⟨j.val % 64, Nat.mod_lt _ (by decide)⟩ : Fin 64)))
      = ix2 r (SsmRow.chX j) := by
  funext a
  match a with
  | ⟨0, _⟩ =>
    exact Fin.ext (show ((r.val * 32 + j.val / 64) * 64 + j.val % 64) / 2048 = r.val by have := j.isLt; omega)
  | ⟨1, _⟩ =>
    exact Fin.ext (show ((r.val * 32 + j.val / 64) * 64 + j.val % 64) % 2048 = j.val by have := j.isLt; omega)

/-- The scan line of row r, as a sum of two products. -/
theorem v38_at (r : Fin 16384) (j : Fin 2048) :
    val_main_v38 (F := Ideal) x0 x1 x2 x3 x4 x5 x6 x7 x9 (ix2 r j) = SsmRow.scanSum 𝐖 (𝐬 r) j := by
  rw [val_main_v38_apply, split_idx, val_main_v37_apply, val_main_v33_apply, val_main_v36_apply, val_main_v25_apply,
    val_main_v18_apply, merge_idx, val_main_v32_apply, val_main_v31_apply, val_main_v30_apply, val_main_v29_apply,
    val_main_v28_apply, val_main_v35_apply, val_main_v34_apply,
    show idx_main_v31 (idx_main_v32 (ix3 r (SsmRow.head j) (⟨j.val % 64, Nat.mod_lt _ (by decide)⟩ : Fin 64)))
      = ix2 r (SsmRow.head j) by idx2,
    show idx_main_v28 (idx_main_v29 (ix2 r (SsmRow.head j))) = ix1 r by idx1,
    show idx_main_v34 (idx_main_v35 (ix3 r (SsmRow.head j) (⟨j.val % 64, Nat.mod_lt _ (by decide)⟩ : Fin 64)))
      = ix1 (SsmRow.head j) by idx1,
    v17_at x0 x1 x2 x3 x4 x5 x6 x7 x9 x10 x11 x12 x13, v24_at x0 x1 x2 x3 x4 x5 x6 x7 x9 x10 x11 x12 x13,
    v27_at x0 x1 x2 x3 x4 x5 x6 x7 x9 x10 x11 x12 x13]
  rfl

/-! ## The gate, the normalisation and the two projections -/

/-- The gated scan line of row r. -/
def gated (r : Fin 16384) : Fin 2048 → EReal :=
  SsmRow.gatedBy (fun j => SsmRow.mixed 𝐖 (𝐬 r) (SsmRow.colZ j)) (SsmRow.scanSum 𝐖 (𝐬 r))

local notation "𝐠" => gated x0 x1 x2 x3 x4 x5 x6 x7 x9 x10 x11 x12 x13

/-- The scan line times the silu of the gate column. -/
theorem v40_at (r : Fin 16384) (j : Fin 2048) :
    val_main_v40 (F := Ideal) x0 x1 x2 x3 x4 x5 x6 x7 x9 (ix2 r j) = 𝐠 r j := by
  rw [val_main_v40_apply, val_main_v39_apply, val_main_call2_v5_apply, val_main_call2_v4_apply,
    val_main_call2_cst_0_apply, val_main_call2_v3_apply, val_main_call2_v2_apply, val_main_call2_cst_apply,
    val_main_call2_v1_apply, val_main_call2_v0_apply, silu_host, val_main_v6_apply,
    show idx_main_v6 (ix2 r j) = ix2 r (SsmRow.colZ j) by idx2,
    v5_at x0 x1 x2 x3 x4 x5 x6 x7 x9 x10 x11 x12 x13, v38_at x0 x1 x2 x3 x4 x5 x6 x7 x9 x10 x11 x12 x13]
  rfl

/-- The sum of squares of the gated line of row r. -/
theorem v42_at (r : Fin 16384) :
    val_main_v42 (F := Ideal) x0 x1 x2 x3 x4 x5 x6 x7 x9 (ix1 r) = ∑ j' : Fin 2048, 𝐠 r j' * 𝐠 r j' := by
  rw [val_main_v42_apply, val_main_cst_0_apply]
  show Ideal.ofBits .f32 0x00000000#32 + _ = _
  rw [Ideal.ofBits_zero_f32, zero_add]
  refine Finset.sum_congr rfl fun k _ => ?_
  rw [val_main_v41_apply, show idx_main_v42 (ix1 r) k = ix2 r k by idx2,
    v40_at x0 x1 x2 x3 x4 x5 x6 x7 x9 x10 x11 x12 x13]
  rfl

/-- The normalised line of row r. -/
theorem v53_at (r : Fin 16384) (j : Fin 2048) :
    val_main_v53 (F := Ideal) x0 x1 x2 x3 x4 x5 x6 x7 x9 x10 (ix2 r j) = SsmRow.normedBy 𝐖.nw (𝐠 r) j := by
  rw [val_main_v53_apply, val_main_v50_apply, val_main_v49_apply, val_main_v48_apply, val_main_v47_apply,
    val_main_v45_apply, val_main_v43_apply, val_main_v44_apply, val_main_cst_1_apply, val_main_v46_apply,
    val_main_cst_2_apply, val_main_v52_apply, val_main_v51_apply,
    show idx_main_v43 (idx_main_v49 (ix2 r j)) = ix1 r by idx1,
    show idx_main_v51 (idx_main_v52 (ix2 r j)) = ix1 j by idx1,
    v42_at x0 x1 x2 x3 x4 x5 x6 x7 x9 x10 x11 x12 x13, v40_at x0 x1 x2 x3 x4 x5 x6 x7 x9 x10 x11 x12 x13]
  rfl

/-- The first projection of row r. -/
theorem v54_at (r : Fin 16384) (k : Fin 1024) :
    val_main_v54 (F := Ideal) x0 x1 x2 x3 x4 x5 x6 x7 x9 x10 x11 (ix2 r k)
      = SsmRow.proj1Of 𝐖.wop (SsmRow.normedBy 𝐖.nw (𝐠 r)) k := by
  rw [val_main_v54_apply]
  unfold SsmRow.proj1Of
  refine Finset.sum_congr rfl fun j _ => ?_
  rw [show lidx_main_v54 (ix2 r k) j = ix2 r j by idx2, show ridx_main_v54 (ix2 r k) j = ix2 j k by idx2,
    v53_at x0 x1 x2 x3 x4 x5 x6 x7 x9 x10 x11 x12 x13]
  rfl

/-- The second projection of row r, with its bias: the row's results. -/
theorem v58_at (r : Fin 16384) (c : Fin 256) :
    val_main_v58 (F := Ideal) x0 x1 x2 x3 x4 x5 x6 x7 x9 x10 x11 x12 x13 (ix2 r c)
      = SsmRow.proj2Of 𝐖.wo 𝐖.bo (SsmRow.proj1Of 𝐖.wop (SsmRow.normedBy 𝐖.nw (𝐠 r))) c := by
  rw [val_main_v58_apply, val_main_v55_apply, val_main_v57_apply, val_main_v56_apply,
    show idx_main_v56 (idx_main_v57 (ix2 r c)) = ix1 c by idx1]
  unfold SsmRow.proj2Of
  refine congrArg (· + x13 (ix1 c)) (Finset.sum_congr rfl fun k _ => ?_)
  rw [show lidx_main_v55 (ix2 r c) k = ix2 r k by idx2, show ridx_main_v55 (ix2 r c) k = ix2 k c by idx2,
    v54_at x0 x1 x2 x3 x4 x5 x6 x7 x9 x10 x11 x12 x13]
  rfl

end Stages

/-- The reference's last stage, read at every index, is the specification's result array (scan line as a sum of two
    products). -/
theorem ref_result (x0 : (⟨S16384x256, .f32⟩ : BufTy).Contents (Elt Ideal)) (x1 : (⟨S16384x64, .f32⟩ : BufTy).Contents (Elt Ideal))
    (x2 : (⟨S320x1024, .f32⟩ : BufTy).Contents (Elt Ideal)) (x3 : (⟨S1024, .f32⟩ : BufTy).Contents (Elt Ideal))
    (x4 : (⟨S1024x4256, .f32⟩ : BufTy).Contents (Elt Ideal)) (x5 : (⟨S2176x4, .f32⟩ : BufTy).Contents (Elt Ideal))
    (x6 : (⟨S2176, .f32⟩ : BufTy).Contents (Elt Ideal)) (x7 x9 : (⟨S32, .f32⟩ : BufTy).Contents (Elt Ideal))
    (x10 : (⟨S2048, .f32⟩ : BufTy).Contents (Elt Ideal)) (x11 : (⟨S2048x1024, .f32⟩ : BufTy).Contents (Elt Ideal))
    (x12 : (⟨S1024x256, .f32⟩ : BufTy).Contents (Elt Ideal)) (x13 : (⟨S256, .f32⟩ : BufTy).Contents (Elt Ideal)) :
    val_main_v58 (F := Ideal) x0 x1 x2 x3 x4 x5 x6 x7 x9 x10 x11 x12 x13
      = Cert.SsmRow.result x0 x1 x2 x3 x4 x5 x6 x7 x9 x10 x11 x12 x13 := by
  funext i
  obtain ⟨r, c, rfl⟩ : ∃ r c, i = ix2 r c := ⟨i 0, i 1, eq_ix2 i⟩
  rw [v58_at]
  rfl

end Cert.ReferenceIdeal.RefValue

end
-- ==== Proof.LibPlainDot.lean ====
/-
  A plain matrix product read at an index.  For the dimension numbers of rows-by-columns (the left operand contracted on
  its second axis, the right on its first, no batch axis) the contraction index is one coordinate k, the left operand is
  read at (r, k) and the right at (k, c): the sum over the contraction shape is the sum over k < K of l[r,k] · r[k,c].
  Both a kernel's matrix unit into a zero accumulator and the host's dot product are this sum at the exact instance.
-/
import Idealize.ShloMosaic.PureOps.Ideal.Laws
import Idealize.ShloMosaic.Lib.ValueIdx

namespace Idealize.ShloMosaic.ValueIdx

open Idealize.ShloMosaic

variable {M K N : ℕ}

/-- The left operand's row is the result's row. -/
theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem plain_lhs_1 (i : (⟨2, ![M, N]⟩ : Shape).Idx) (q : (DotDims.plain M K N).contr.Idx) :
    ((DotDims.plain M K N).lhsIdx i q 1).val = (q ⟨0, by rw [DotDims.rank_contr]; exact Nat.one_pos⟩).val :=
  (DotDims.plain M K N).lhsIdx_val_of_single rfl i q

/-- The right operand's row is the contraction coordinate. -/
theorem plain_rhs_0 (i : (⟨2, ![M, N]⟩ : Shape).Idx) (q : (DotDims.plain M K N).contr.Idx) :
    ((DotDims.plain M K N).rhsIdx i q 0).val = (q ⟨0, by rw [DotDims.rank_contr]; exact Nat.one_pos⟩).val :=
  (DotDims.plain M K N).rhsIdx_val_of_single rfl i q

/-- The right operand's column is the result's column. -/
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product, over the one coordinate k < K. -/
theorem plain_dot_sum (l : (⟨2, ![M, K]⟩ : Shape).Idx → EReal) (r : (⟨2, ![K, N]⟩ : Shape).Idx → EReal)
    (i : (⟨2, ![M, N]⟩ : Shape).Idx) :
    ∑ k : (DotDims.plain M K N).contr.Idx, l ((DotDims.plain M K N).lhsIdx i k) * r ((DotDims.plain M K N).rhsIdx i k)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 _ _
      | ⟨1, _⟩ => exact (plain_lhs_1 _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 _ _).trans hk
      | ⟨1, _⟩ => exact plain_rhs_1 _ _)
  exact congrArg₂ (· * ·) (congrArg l el) (congrArg r er)

/-- A kernel's matrix unit into the zero accumulator, at the exact instance, read at an index. -/
theorem plain_matmul_zero_apply {φ₁ φ₂ : FTy} (prec : Option ContractPrecision)
    (l : FVec Ideal (⟨2, ![M, K]⟩ : Shape) φ₁) (r : FVec Ideal (⟨2, ![K, N]⟩ : Shape) φ₂) (i : (⟨2, ![M, N]⟩ : Shape).Idx) :
    FloatOps.matmul (DotDims.plain M K N) prec l r (constant (⟨2, ![M, N]⟩ : Shape) .f32 0x00000000#32) i
      = ∑ k : Fin K, l (ix2 (i 0) k) * r (ix2 k (i 1)) :=
  (Ideal.matmul_constant_zero_apply _ prec l r i).trans (plain_dot_sum l r i)

/-- The host's dot product, at the exact instance, read at an index. -/
theorem plain_dotGeneral_apply {φ₁ φ₂ : FTy} (prec : Option ContractPrecision) (sched : HostSchedule)
    (l : FVec Ideal (⟨2, ![M, K]⟩ : Shape) φ₁) (r : FVec Ideal (⟨2, ![K, N]⟩ : Shape) φ₂) (i : (⟨2, ![M, N]⟩ : Shape).Idx) :
    FloatOps.dotGeneral (DotDims.plain M K N) prec sched l r i = ∑ k : Fin K, l (ix2 (i 0) k) * r (ix2 k (i 1)) :=
  (Ideal.dotGeneral_apply _ prec sched l r i).trans (plain_dot_sum l r i)

end Idealize.ShloMosaic.ValueIdx
-- ==== Proof.KernelFront.lean ====
/-
  The first half of the kernel body, one block row at a time: the mixed vector of block row p and what the body
  slices off it (the gate, the convolved channels, the pieces of the step's softplus), each read at an index.
-/
import proofs.«150620_j17403207483676_1_alg».proof.Proof.Gen.KernelIdeal.Skeleton
import proofs.«150620_j17403207483676_1_alg».proof.Proof.Spec
import proofs.«150620_j17403207483676_1_alg».proof.Proof.LibPlainDot
import Idealize.ShloMosaic.Lib.Pipeline.Value
import Idealize.ShloMosaic.Lib.ValueLayout

noncomputable section

namespace Cert.KernelIdeal.Body

open Cert.KernelIdeal Cert.KernelIdeal.Gen Idealize.ShloMosaic Idealize.ShloMosaic.ValueIdx Cert.SsmRow

variable (v0 : Vec Ideal S256x320 .bf16) (v2 : Vec Ideal S320x1024 .bf16) (v5 : Vec Ideal S1x1024 .f32)
  (v10 : Vec Ideal S1024x4256 .bf16) (v16 v20 : Vec Ideal S1x2176 .f32) (v29 : Vec Ideal S1x32 .f32) (p : Fin 256)

/-- The mixed vector of block row p: both affine maps applied to row p of the input block. -/
abbrev rowMixed : Fin 4256 → EReal :=
  mixedOf (fun l => v0 (ix2 p l)) (fun l k => v2 (ix2 l k)) (fun k => v5 (ix2 (0 : Fin 1) k)) (fun k j => v10 (ix2 k j))

/-- The step's argument for head h of block row p, before the softplus. -/
abbrev rowStepArg (h : Fin 32) : EReal := rowMixed v0 v2 v5 v10 p (colDt h) + v29 (ix2 (0 : Fin 1) h)

/-- The first product's dimension record is the plain rows-by-columns one. -/
theorem front_dot1_eq : dot_S256x320_S320x1024_S256x1024_1_0_0_1_n_n = DotDims.plain 256 320 1024 := rfl

/-- The second product's dimension record is the plain rows-by-columns one. -/
theorem front_dot2_eq : dot_S256x1024_S1024x4256_S256x4256_1_0_0_1_n_n = DotDims.plain 256 1024 4256 := rfl

theorem pay2_apply (j : Fin 4256) : k0_pay2 (F := Ideal) v0 v2 v5 v10 (ix2 p j) = rowMixed v0 v2 v5 v10 p j := by
  unfold k0_pay2
  simp only [shapeCast_self, front_dot1_eq, front_dot2_eq]
  refine (plain_matmul_zero_apply (φ₁ := .bf16) (φ₂ := .bf16) none _ _ (ix2 p j)).trans ?_
  show _ = ∑ k : Fin 1024, ((∑ l : Fin 320, v0 (ix2 p l) * v2 (ix2 l k)) + v5 (ix2 (0 : Fin 1) k)) * v10 (ix2 k j)
  refine Finset.sum_congr rfl fun k _ => ?_
  refine congrArg₂ (· * ·) ?_ rfl
  exact congrArg₂ (· + ·) (plain_matmul_zero_apply (φ₁ := .bf16) (φ₂ := .bf16) none v0 v2 (ix2 p k))
    (broadcastTo_1b_ab_apply v5 broadcasts_S1x1024_S256x1024 p k)

theorem pay3_apply (j : Fin 2048) : k0_pay3 (F := Ideal) v0 v2 v5 v10 (ix2 p j) = rowMixed v0 v2 v5 v10 p (colZ j) := by
  unfold k0_pay3
  exact (slice2_axis1_apply 0 (k0_pay2 (F := Ideal) v0 v2 v5 v10) slices_S256x4256_o0_0_S256x2048 p j (colZ j)
    (Nat.zero_add _).symm).trans (pay2_apply v0 v2 v5 v10 p (colZ j))

/-- The logistic of a vector, read at an index. -/
theorem front_logistic_apply {s : Shape} {φ : FTy} (a : FVec Ideal s φ) (i : s.Idx) : logistic a i = Ideal.logistic (a i) := rfl

theorem pay4_apply (j : Fin 2176) : k0_pay4 (F := Ideal) v0 v2 v5 v10 v16 v20 (ix2 p j)
    = convOf (rowMixed v0 v2 v5 v10 p) (fun j => v16 (ix2 (0 : Fin 1) j)) (fun j => v20 (ix2 (0 : Fin 1) j)) j := by
  have hs : extractStridedSlice S256x2176 ![0, 2048] (k0_pay2 (F := Ideal) v0 v2 v5 v10) slices_S256x4256_o0_2048_S256x2176 (ix2 p j)
      = rowMixed v0 v2 v5 v10 p (colX j) :=
    (slice2_axis1_apply 2048 (k0_pay2 (F := Ideal) v0 v2 v5 v10) slices_S256x4256_o0_2048_S256x2176 p j (colX j) rfl).trans
      (pay2_apply v0 v2 v5 v10 p (colX j))
  have hw := broadcastTo_1b_ab_apply v16 broadcasts_S1x2176_S256x2176 p j
  have hb := broadcastTo_1b_ab_apply v20 broadcasts_S1x2176_S256x2176 p j
  unfold k0_pay4
  simp only [shapeCast_self, mulf_apply, addf_apply, front_logistic_apply, Ideal.logistic_def, hs, hw, hb]
  rfl

theorem pay5_apply (j : Fin 2048) : k0_pay5 (F := Ideal) v0 v2 v5 v10 v16 v20 (ix2 p j)
    = convOf (rowMixed v0 v2 v5 v10 p) (fun j => v16 (ix2 (0 : Fin 1) j)) (fun j => v20 (ix2 (0 : Fin 1) j)) (chX j) := by
  unfold k0_pay5
  exact (slice2_axis1_apply 0 (k0_pay4 (F := Ideal) v0 v2 v5 v10 v16 v20) slices_S256x2176_o0_0_S256x2048 p j (chX j)
    (Nat.zero_add _).symm).trans (pay4_apply v0 v2 v5 v10 v16 v20 p (chX j))

theorem pay6_apply (l : Fin 64) : k0_pay6 (F := Ideal) v0 v2 v5 v10 v16 v20 (ix2 p l)
    = convOf (rowMixed v0 v2 v5 v10 p) (fun j => v16 (ix2 (0 : Fin 1) j)) (fun j => v20 (ix2 (0 : Fin 1) j)) (chB l) := by
  unfold k0_pay6
  exact (slice2_axis1_apply 2048 (k0_pay4 (F := Ideal) v0 v2 v5 v10 v16 v20) slices_S256x2176_o0_2048_S256x64 p l (chB l)
    rfl).trans (pay4_apply v0 v2 v5 v10 v16 v20 p (chB l))

theorem pay7_apply (l : Fin 64) : k0_pay7 (F := Ideal) v0 v2 v5 v10 v16 v20 (ix2 p l)
    = convOf (rowMixed v0 v2 v5 v10 p) (fun j => v16 (ix2 (0 : Fin 1) j)) (fun j => v20 (ix2 (0 : Fin 1) j)) (chC l) := by
  unfold k0_pay7
  exact (slice2_axis1_apply 2112 (k0_pay4 (F := Ideal) v0 v2 v5 v10 v16 v20) slices_S256x2176_o0_2112_S256x64 p l (chC l)
    rfl).trans (pay4_apply v0 v2 v5 v10 v16 v20 p (chC l))

/-- The step's argument as the body forms it: the step columns of the mixed vector plus the step bias. -/
theorem pay8_apply (h : Fin 32) : k0_pay8 (F := Ideal) v0 v2 v5 v10 v29 (ix2 p h) = rowStepArg v0 v2 v5 v10 v29 p h := by
  unfold k0_pay8
  simp only [shapeCast_self]
  exact congrArg₂ (· + ·)
    ((slice2_axis1_apply 4224 (k0_pay2 (F := Ideal) v0 v2 v5 v10) slices_S256x4256_o0_4224_S256x32 p h (colDt h) rfl).trans
      (pay2_apply v0 v2 v5 v10 p (colDt h)))
    (broadcastTo_1b_ab_apply v29 broadcasts_S1x32_S256x32 p h)

/-- Subtracting the zero constant leaves the step's argument as it is. -/
theorem pay10_apply (h : Fin 32) : k0_pay10 (F := Ideal) v0 v2 v5 v10 v29 (ix2 p h) = rowStepArg v0 v2 v5 v10 v29 p h := by
  unfold k0_pay10
  show k0_pay8 (F := Ideal) v0 v2 v5 v10 v29 (ix2 p h) - Ideal.ofBits .f32 0x00000000#32 = _
  rw [pay8_apply, Ideal.ofBits_zero_f32, sub_zero]

theorem pay9_apply (h : Fin 32) : k0_pay9 (F := Ideal) v0 v2 v5 v10 v29 (ix2 p h) = max (rowStepArg v0 v2 v5 v10 v29 p h) 0 := by
  unfold k0_pay9
  show max (k0_pay8 (F := Ideal) v0 v2 v5 v10 v29 (ix2 p h)) (Ideal.ofBits .f32 0x00000000#32) = _
  rw [pay8_apply, Ideal.ofBits_zero_f32]

/-- The body's test "the argument differs from itself" never fires on the extended reals. -/
theorem pay11_apply (h : Fin 32) : k0_pay11 (F := Ideal) v0 v2 v5 v10 v29 (ix2 p h) = 0#1 := by
  unfold k0_pay11
  show Ideal.cmp .one (k0_pay10 (F := Ideal) v0 v2 v5 v10 v29 (ix2 p h)) (k0_pay10 (F := Ideal) v0 v2 v5 v10 v29 (ix2 p h)) = 0#1
  simp [Ideal.cmp]

theorem pay12_apply (h : Fin 32) : k0_pay12 (F := Ideal) v0 v2 v5 v10 v29 (ix2 p h) = rowStepArg v0 v2 v5 v10 v29 p h := by
  unfold k0_pay12
  show k0_pay8 (F := Ideal) v0 v2 v5 v10 v29 (ix2 p h) + Ideal.ofBits .f32 0x00000000#32 = _
  rw [pay8_apply, Ideal.ofBits_zero_f32, add_zero]

theorem pay13_apply (h : Fin 32) : k0_pay13 (F := Ideal) v0 v2 v5 v10 v29 (ix2 p h)
    = max (rowStepArg v0 v2 v5 v10 v29 p h) (-(rowStepArg v0 v2 v5 v10 v29 p h)) := by
  unfold k0_pay13
  show max (k0_pay10 (F := Ideal) v0 v2 v5 v10 v29 (ix2 p h)) (-(k0_pay10 (F := Ideal) v0 v2 v5 v10 v29 (ix2 p h))) = _
  rw [pay10_apply]

end Cert.KernelIdeal.Body

end
-- ==== Proof.LibColumnBroadcast.lean ====
/-
  One column broadcast over many: a `[a, 1]` array broadcast to `[a, b]` read at an index. The companion of the
  library's row form (one `[1, b]` row broadcast over `a` rows): there the unit axis is the leading one, here
  the trailing one.
-/
import Idealize.ShloMosaic.Lib.ValueLayout

namespace Idealize.ShloMosaic.ValueIdx

open Idealize.ShloMosaic

variable {α : Type}

/-- A `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibColumnCast.lean ====
/-
  A vector viewed as a column: a length-a array cast to shape a x 1 (what a row reduction that keeps its axis produces)
  holds, at (p, 0), the vector's entry p.  The companion of the library's leading-unit-axis casts, with the unit axis
  trailing.
-/
import Idealize.ShloMosaic.Lib.Pipeline.Value
import Idealize.ShloMosaic.Lib.ValueLayout

namespace Idealize.ShloMosaic.ValueIdx

open Idealize.ShloMosaic

variable {α : Type}

/-- A length-a vector cast to an a x 1 column reads, at (p, u), the vector at p, whatever the unit coordinate u. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Idealize.ShloMosaic.ValueIdx
-- ==== Proof.KernelBack.lean ====
/-
  The second half of the kernel body, one block row at a time: from the gate, the channels and the softplus pieces of
  block row p to that row's 256 results.
-/
import proofs.«150620_j17403207483676_1_alg».proof.Proof.Gen.KernelIdeal.Skeleton
import proofs.«150620_j17403207483676_1_alg».proof.Proof.Spec
import proofs.«150620_j17403207483676_1_alg».proof.Proof.LibPlainDot
import proofs.«150620_j17403207483676_1_alg».proof.Proof.LibColumnBroadcast
import proofs.«150620_j17403207483676_1_alg».proof.Proof.LibColumnCast
import Idealize.ShloMosaic.Lib.Pipeline.Value
import Idealize.ShloMosaic.Lib.ValueLayout

noncomputable section

namespace Cert.KernelIdeal.Body

open Cert.KernelIdeal Cert.KernelIdeal.Gen Idealize.ShloMosaic Idealize.ShloMosaic.ValueIdx Cert.SsmRow

/-! ## A row sum, kept as a column and spread over the columns -/

/-- The sum along the second axis of an a-by-b array, read at row p: the sum over the row's b entries. -/
theorem rowSum_apply {a b : ℕ} {φ : FTy} (x : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ x acc h hφ hacc (ix1 p) = ∑ l : Fin b, x (ix2 p l) :=
  (Ideal.multiReduction_add_single x acc h hφ hacc (ix1 p)).trans
    (Finset.sum_congr rfl fun l _ => congrArg x (funext fun c => Fin.ext (by
      match c with
      | ⟨0, _⟩ => rfl
      | ⟨1, _⟩ => rfl)))

/-- The row sum cast to a column and spread over c columns reads, anywhere in row p, the sum over row p. -/
theorem rowSum_spread_apply {a b c : ℕ} {φ : FTy} (x : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, c]⟩) (p : Fin a) (j : Fin c) :
    broadcastTo ⟨2, ![a, c]⟩ (shapeCast ⟨2, ![a, 1]⟩ (multiReduction .add [1] ⟨1, ![a]⟩ x acc h hφ hacc) hc) hb (ix2 p j)
      = ∑ l : Fin b, x (ix2 p l) := by
  rw [broadcastTo_a1_ab_apply, shapeCast_a_a1_apply, rowSum_apply]

/-! ## The three products' dimension records -/

/-- The head-picking product's dimension record is the plain rows-by-columns one. -/
theorem dotPick_eq : dot_S256x32_S32x2048_S256x2048_1_0_0_1_n_n = DotDims.plain 256 32 2048 := rfl

/-- The first projection's dimension record is the plain rows-by-columns one. -/
theorem dotProj1_eq : dot_S256x2048_S2048x1024_S256x1024_1_0_0_1_n_n = DotDims.plain 256 2048 1024 := rfl

/-- The second projection's dimension record is the plain rows-by-columns one. -/
theorem dotProj2_eq : dot_S256x1024_S1024x256_S256x256_1_0_0_1_n_n = DotDims.plain 256 1024 256 := rfl

/-! ## The stages of the body, each over the vectors it reads -/

/-- The step sizes: the softplus assembled from its pieces, entry by entry. -/
theorem step_stage (v34 : FVec Ideal S256x32 .f32) (v37 : IVec S256x32 1) (v39 v40 : FVec Ideal S256x32 .f32) (c15 : Ideal .f32)
    (p : Fin 256) (h : Fin 32) :
    select v37 v39 (addf v34 (log1p (exp (subf (broadcast S256x32 c15) v40)))) (ix2 p h)
      = Scalar.select (v37 (ix2 p h)) (v39 (ix2 p h)) (v34 (ix2 p h) + Ideal.log1p (Ideal.exp (c15 - v40 (ix2 p h)))) := rfl

/-- The scaled steps: head h's step times the inner product of row p's B and C channels. -/
theorem scaled_stage (v46 : FVec Ideal S256x32 .f32) (v27 v28 : FVec Ideal S256x64 .f32) (p : Fin 256) (h : Fin 32) :
    (truncf .bf16 (mulf v46 (broadcastTo S256x32 (shapeCast S256x1
        (multiReduction .add [1] S256 (mulf v27 v28) 0x00000000#32 reduces_S256x64_S256 (.inl rfl) rfl) shapeCasts_S256_S256x1)
        broadcasts_S256x1_S256x32)) bitsLt_bf16_f32 : FVec Ideal S256x32 .bf16) (ix2 p h)
      = v46 (ix2 p h) * ∑ l : Fin 64, v27 (ix2 p l) * v28 (ix2 p l) :=
  congrArg (v46 (ix2 p h) * ·) (rowSum_spread_apply (mulf v27 v28) _ reduces_S256x64_S256 _ _ shapeCasts_S256_S256x1
    broadcasts_S256x1_S256x32 p h)

/-- The scan line: the channel times the sum that picks its head's scaled step, plus the skip weight. -/
theorem picked_stage (v26 : FVec Ideal S256x2048 .f32) (v52 : FVec Ideal S256x32 .bf16) (v53 : FVec Ideal S32x2048 .bf16)
    (v56 : FVec Ideal S1x2048 .f32) (p : Fin 256) (j : Fin 2048) :
    mulf v26 (addf (matmul dot_S256x32_S32x2048_S256x2048_1_0_0_1_n_n none v52
        (shapeCast S32x2048 v53 shapeCasts_S32x2048_S32x2048 : FVec Ideal S32x2048 .bf16) (constant S256x2048 .f32 0x00000000#32))
        (broadcastTo S256x2048 (shapeCast S1x2048 v56 shapeCasts_S1x2048_S1x2048 : FVec Ideal S1x2048 .f32)
          broadcasts_S1x2048_S256x2048)) (ix2 p j)
      = v26 (ix2 p j) * ((∑ h : Fin 32, v52 (ix2 p h) * v53 (ix2 h j)) + v56 (ix2 (0 : Fin 1) j)) := by
  rw [shapeCast_self, shapeCast_self, dotPick_eq]
  exact congrArg (v26 (ix2 p j) * ·) (congrArg₂ (· + ·)
    (plain_matmul_zero_apply (φ₁ := .bf16) (φ₂ := .bf16) none v52 v53 (ix2 p j))
    (broadcastTo_1b_ab_apply v56 broadcasts_S1x2048_S256x2048 p j))

/-- The gate: the scan line times the silu of the gate's entry. -/
theorem gated_stage (v13 v60 : FVec Ideal S256x2048 .f32) (p : Fin 256) (j : Fin 2048) :
    mulf v60 (mulf v13 (logistic v13)) (ix2 p j) = gatedBy (fun j => v13 (ix2 p j)) (fun j => v60 (ix2 p j)) j := rfl

/-- The normalisation: each entry times the reciprocal root of the row's mean square plus epsilon, times the weight. -/
theorem normed_stage (v63 : FVec Ideal S256x2048 .f32) (v74 : FVec Ideal S1x2048 .f32) (p : Fin 256) (j : Fin 2048) :
    (truncf .bf16 (mulf (mulf v63 (broadcastTo S256x2048 (rsqrt (addf (divf (shapeCast S256x1
        (multiReduction .add [1] S256 (mulf v63 v63) 0x00000000#32 reduces_S256x2048_S256 (.inl rfl) rfl) shapeCasts_S256_S256x1)
        (broadcast S256x1 (Scalar.ofBits .f32 0x45000000#32))) (broadcast S256x1 (Scalar.ofBits .f32 0x3727C5AC#32))))
        broadcasts_S256x1_S256x2048))
        (broadcastTo S256x2048 (shapeCast S1x2048 v74 shapeCasts_S1x2048_S1x2048 : FVec Ideal S1x2048 .f32)
          broadcasts_S1x2048_S256x2048)) bitsLt_bf16_f32 : FVec Ideal S256x2048 .bf16) (ix2 p j)
      = normedBy (fun j => v74 (ix2 (0 : Fin 1) j)) (fun j => v63 (ix2 p j)) j := by
  rw [shapeCast_self]
  unfold normedBy
  refine congrArg₂ (· * ·) (congrArg (v63 (ix2 p j) * ·) ?_) (broadcastTo_1b_ab_apply v74 broadcasts_S1x2048_S256x2048 p j)
  refine (broadcastTo_a1_ab_apply _ broadcasts_S256x1_S256x2048 p j).trans ?_
  show Ideal.rsqrt (Ideal.div (shapeCast S256x1 _ shapeCasts_S256_S256x1 (ix2 p (0 : Fin 1))) c2048 + ceps) = _
  rw [shapeCast_a_a1_apply]
  exact congrArg (fun t => Ideal.rsqrt (Ideal.div t c2048 + ceps)) (rowSum_apply (mulf v63 v63) _ reduces_S256x2048_S256 _ _ p)

/-- The first projection: the normalised row against the weight's columns. -/
theorem proj1_stage (v78 : FVec Ideal S256x2048 .bf16) (v79 : FVec Ideal S2048x1024 .bf16) (p : Fin 256) (k : Fin 1024) :
    (truncf .bf16 (matmul dot_S256x2048_S2048x1024_S256x1024_1_0_0_1_n_n none v78
        (shapeCast S2048x1024 v79 shapeCasts_S2048x1024_S2048x1024 : FVec Ideal S2048x1024 .bf16)
        (constant S256x1024 .f32 0x00000000#32)) bitsLt_bf16_f32 : FVec Ideal S256x1024 .bf16) (ix2 p k)
      = proj1Of (fun j k => v79 (ix2 j k)) (fun j => v78 (ix2 p j)) k := by
  rw [shapeCast_self, dotProj1_eq]
  exact plain_matmul_zero_apply (φ₁ := .bf16) (φ₂ := .bf16) none v78 v79 (ix2 p k)

/-- The second projection, with its bias: the block's result at row p, column q. -/
theorem pay1_apply (v82 : FVec Ideal S256x1024 .bf16) (v84 : FVec Ideal S1024x256 .bf16) (v86 : Vec Ideal S1x256 .f32) (p q : Fin 256) :
    k0_pay1 (F := Ideal) v82 v84 v86 (ix2 p q)
      = proj2Of (fun k c => v84 (ix2 k c)) (fun c => v86 (ix2 (0 : Fin 1) c)) (fun k => v82 (ix2 p k)) q := by
  unfold k0_pay1
  simp only [shapeCast_self, dotProj2_eq]
  exact congrArg₂ (· + ·) (plain_matmul_zero_apply (φ₁ := .bf16) (φ₂ := .bf16) none v82 v84 (ix2 p q))
    (broadcastTo_1b_ab_apply v86 broadcasts_S1x256_S256x256 p q)

/-- The last weight is read as it is. -/
theorem pay15_eq (v83 : Vec Ideal S1024x256 .bf16) : k0_pay15 (F := Ideal) v83 = v83 := by
  unfold k0_pay15
  exact shapeCast_self _ _

/-- The first projection of the body at row p, column k: of the normalised, gated scan line. -/
theorem pay14_apply (v13 v26 : FVec Ideal S256x2048 .f32) (v27 v28 : FVec Ideal S256x64 .f32) (v34 : FVec Ideal S256x32 .f32)
    (v37 : IVec S256x32 1) (v39 v40 : FVec Ideal S256x32 .f32) (c15 : Ideal .f32) (v53 : Vec Ideal S32x2048 .bf16)
    (v56 v74 : Vec Ideal S1x2048 .f32) (v79 : Vec Ideal S2048x1024 .bf16) (p : Fin 256) (k : Fin 1024) :
    k0_pay14 (F := Ideal) v13 v26 v27 v28 v34 v37 v39 v40 c15 v53 v56 v74 v79 (ix2 p k)
      = proj1Of (fun j k => v79 (ix2 j k)) (normedBy (fun j => v74 (ix2 (0 : Fin 1) j)) (gatedBy (fun j => v13 (ix2 p j))
          (scanPickedOf (fun j => v26 (ix2 p j)) (fun l => v27 (ix2 p l)) (fun l => v28 (ix2 p l))
            (fun h => Scalar.select (v37 (ix2 p h)) (v39 (ix2 p h))
              (v34 (ix2 p h) + Ideal.log1p (Ideal.exp (c15 - v40 (ix2 p h)))))
            (fun h j => v53 (ix2 h j)) (fun j => v56 (ix2 (0 : Fin 1) j))))) k := by
  unfold k0_pay14
  refine (proj1_stage _ v79 p k).trans ?_
  refine congrArg (fun n => proj1Of _ n k) (funext fun j => ?_)
  refine (normed_stage _ v74 p j).trans ?_
  refine congrArg (fun g => normedBy _ g j) (funext fun j => ?_)
  refine (gated_stage v13 _ p j).trans ?_
  refine congrArg (fun y => gatedBy _ y j) (funext fun j => ?_)
  refine (picked_stage v26 _ v53 v56 p j).trans ?_
  unfold scanPickedOf
  refine congrArg (fun t => v26 (ix2 p j) * (t + v56 (ix2 (0 : Fin 1) j))) (Finset.sum_congr rfl fun h _ => ?_)
  refine congrArg (· * v53 (ix2 h j)) ?_
  exact scaled_stage _ v27 v28 p h

/-- The second half of the body at row p, column q of the block: the scan line with the head picked by the sum against
    the matrix v53, gated by v13's row, normalised, and sent through the two last linear maps. -/
theorem back_apply (v13 v26 : FVec Ideal S256x2048 .f32) (v27 v28 : FVec Ideal S256x64 .f32) (v34 : FVec Ideal S256x32 .f32)
    (v37 : IVec S256x32 1) (v39 v40 : FVec Ideal S256x32 .f32) (c15 : Ideal .f32) (v53 : Vec Ideal S32x2048 .bf16)
    (v56 v74 : Vec Ideal S1x2048 .f32) (v79 : Vec Ideal S2048x1024 .bf16) (v83 : Vec Ideal S1024x256 .bf16)
    (v86 : Vec Ideal S1x256 .f32) (p q : Fin 256) :
    k0_pay1 (F := Ideal) (k0_pay14 v13 v26 v27 v28 v34 v37 v39 v40 c15 v53 v56 v74 v79) (k0_pay15 v83) v86 (ix2 p q)
      = tailOf (fun j => v74 (ix2 (0 : Fin 1) j)) (fun j k => v79 (ix2 j k)) (fun k c => v83 (ix2 k c))
          (fun c => v86 (ix2 (0 : Fin 1) c)) (fun j => v13 (ix2 p j))
          (scanPickedOf (fun j => v26 (ix2 p j)) (fun l => v27 (ix2 p l)) (fun l => v28 (ix2 p l))
            (fun h => Scalar.select (v37 (ix2 p h)) (v39 (ix2 p h))
              (v34 (ix2 p h) + Ideal.log1p (Ideal.exp (c15 - v40 (ix2 p h)))))
            (fun h j => v53 (ix2 h j)) (fun j => v56 (ix2 (0 : Fin 1) j))) q := by
  refine (pay1_apply _ _ v86 p q).trans ?_
  unfold tailOf
  rw [pay15_eq]
  refine congrArg (fun o => proj2Of _ _ o q) (funext fun k => ?_)
  exact pay14_apply v13 v26 v27 v28 v34 v37 v39 v40 c15 v53 v56 v74 v79 p k

end Cert.KernelIdeal.Body

end
-- ==== Proof.KernelBody.lean ====
/-
  One block row of the kernel body, whole: from row p of the input block and the weights' blocks to that row's 256
  results, in the arrangement with the common factor taken out of the scan line.  The two halves of the body are joined
  here: the softplus is assembled from its pieces (the test "the argument differs from itself" never fires, so the select
  takes max(u, 0) + log(1 + e^(0 - |u|))), and the sum against the 0/1 head matrix picks each channel's own head.
-/
import proofs.«150620_j17403207483676_1_alg».proof.Proof.Gen.KernelIdeal.Frame
import proofs.«150620_j17403207483676_1_alg».proof.Proof.Spec
import proofs.«150620_j17403207483676_1_alg».proof.Proof.KernelFront
import proofs.«150620_j17403207483676_1_alg».proof.Proof.KernelBack

noncomputable section

namespace Cert.KernelIdeal.Body

open Cert.KernelIdeal Cert.KernelIdeal.Gen Idealize.ShloMosaic Idealize.ShloMosaic.ValueIdx Cert.SsmRow

theorem hz00 : (![0, 0] : Fin 2 → Nat) = fun _ => 0 := funext fun a => by fin_cases a <;> rfl

/-- The softplus as the body assembles it from its pieces. -/
theorem softplus_assembled (u : EReal) :
    Scalar.select (0#1 : BitVec 1) u
        (max u 0 + Ideal.log1p (Ideal.exp ((Scalar.ofBits (F := Ideal) .f32 0x00000000#32) - max u (-u)))) = softplus u := by
  rw [select_zero]
  show max u 0 + Ideal.log1p (Ideal.exp (Ideal.ofBits .f32 0x00000000#32 - max u (-u))) = _
  rw [Ideal.ofBits_zero_f32, zero_sub]
  rfl

theorem body_apply (x0 : Vec Ideal S256x320 .bf16) (x1 : Vec Ideal S320x1024 .bf16) (x2 : Vec Ideal S1x1024 .f32)
    (x3 : Vec Ideal S1024x4256 .bf16) (x4 x5 : Vec Ideal S1x2176 .f32) (x6 : Vec Ideal S1x32 .f32) (x7 : Vec Ideal S1x2048 .f32)
    (x8 : Vec Ideal S32x2048 .bf16) (x9 : Vec Ideal S1x2048 .f32) (x10 : Vec Ideal S2048x1024 .bf16)
    (x11 : Vec Ideal S1024x256 .bf16) (x12 : Vec Ideal S1x256 .f32)
    (hx8 : ∀ (h : Fin 32) (j : Fin 2048), x8 (ix2 h j) = (if h = head j then (1 : EReal) else 0)) (p q : Fin 256) :
    out0_13 (F := Ideal) x0 x1 x2 x3 x4 x5 x6 x7 x8 x9 x10 x11 x12 (ix2 p q)
      = rowOut (blockWeights x1 x2 x3 x4 x5 x6 x7 x9 x10 x11 x12) (fun l => x0 (ix2 p l))
          (scanFused (blockWeights x1 x2 x3 x4 x5 x6 x7 x9 x10 x11 x12) (fun l => x0 (ix2 p l))) q := by
  unfold out0_13
  rw [View.canon_unit_zero hz00]
  simp only [View.ld_unit_zero (S := S256x320) hz00, View.ld_unit_zero (S := S320x1024) hz00, View.ld_unit_zero (S := S1x1024) hz00,
    View.ld_unit_zero (S := S1024x4256) hz00, View.ld_unit_zero (S := S1x2176) hz00, View.ld_unit_zero (S := S1x32) hz00,
    View.ld_unit_zero (S := S1x2048) hz00, View.ld_unit_zero (S := S32x2048) hz00, View.ld_unit_zero (S := S2048x1024) hz00,
    View.ld_unit_zero (S := S1024x256) hz00, View.ld_unit_zero (S := S1x256) hz00]
  refine (back_apply _ _ _ _ _ _ _ _ _ _ _ _ _ _ _ p q).trans ?_
  simp only [pay3_apply, pay5_apply, pay6_apply, pay7_apply, pay9_apply, pay11_apply, pay12_apply, pay13_apply, softplus_assembled]
  rw [scanPickedOf_heads (convOf (rowMixed x0 x1 x2 x3 p) (fun j => x4 (ix2 (0 : Fin 1) j)) (fun j => x5 (ix2 (0 : Fin 1) j)))
    (fun h => softplus (rowStepArg x0 x1 x2 x3 x6 p h)) (fun h j => x8 (ix2 h j)) (fun j => x7 (ix2 (0 : Fin 1) j)) hx8]
  rfl

end Cert.KernelIdeal.Body

end
-- ==== Proof.Windows.lean ====
/-
  What each input window's array holds when the kernel region is entered, in terms of the argument arrays: the host
  operations before the call only change formats (the identity on the extended reals), re-lay vectors as one-row matrices,
  take the convolution's last tap, spread the skip weight over each head's 64 channels, join the two inputs along their
  columns, and build the 0/1 matrix that has a one at (h, j) exactly when channel j belongs to head h.
-/
import proofs.«150620_j17403207483676_1_alg».proof.Proof.Gen.KernelIdeal.Frame
import proofs.«150620_j17403207483676_1_alg».proof.Proof.Spec
import Idealize.ShloMosaic.Lib.Pipeline.Value
import Idealize.ShloMosaic.Lib.ValueLayout
import Idealize.ShloMosaic.Lib.StableHlo.Run

noncomputable section

namespace Cert.KernelIdeal.Windows

open Cert.KernelIdeal Cert.KernelIdeal.Gen Idealize.ShloMosaic Idealize.ShloMosaic.TcCoe Idealize.SL.Sem
  Idealize.ShloMosaic.ValueIdx Cert.SsmRow

/-- Row number a plus zero and column number b, as 32-bit words, are the same word exactly when a = b. -/
private theorem word_eq_iff (a b : Fin 32) : IntOp.addi (BitVec.ofNat 32 a.val) 0#32 = BitVec.ofNat 32 b.val ↔ a = b := by
  unfold IntOp.addi
  rw [BitVec.add_zero]
  constructor
  · intro h
    have h' := congrArg BitVec.toNat h
    rw [BitVec.toNat_ofNat, BitVec.toNat_ofNat, Nat.mod_eq_of_lt (by have := a.isLt; omega),
      Nat.mod_eq_of_lt (by have := b.isLt; omega)] at h'
    exact Fin.ext h'
  · rintro rfl; rfl

/-- The comparison bit as a number: one when the words agree, zero when they do not. -/
private theorem bit_toNat (a b : BitVec 32) : (IntOp.cmpi .eq a b).toNat = if a = b then 1 else 0 := by
  unfold IntOp.cmpi
  by_cases hab : a = b
  · rw [if_pos hab, hab]; simp
  · rw [if_neg hab]
    have : (a == b) = false := beq_eq_false_iff_ne.mpr hab
    simp [this]

variable (m : (ℓ : Loc nD τ sig) → Buf (Elt Ideal) ℓ) (c : Dev nD)

/-- Window 0's array: the two inputs joined along their columns. -/
theorem arr_v1 (r : Fin 16384) (l : Fin 320) :
    (V m c main_v1 : S16384x320.Idx → EReal) (ix2 r l) = joined (m ((c : Thread nD τ).loc main_arg0)) (m ((c : Thread nD τ).loc main_arg1)) r l := by
  have e : @Eq (S16384x320.Idx → EReal) (V m c main_v1)
      (truncf (F := Ideal) (s := S16384x320) (φ := .f32) .bf16
        (concatenate (α := EReal) S16384x320 1
          [⟨S16384x256, m ((c : Thread nD τ).loc main_arg0)⟩, ⟨S16384x64, m ((c : Thread nD τ).loc main_arg1)⟩]
          concatenates_S16384x256_S16384x64_S16384x320_d1)
        bitsLt_bf16_f32) := by
    dsimp only [Gen.V, Gen.hostOps0]; after_results <;> rfl
  rw [e, truncf_apply]
  unfold joined
  by_cases h : l.val < 256
  · -- a column below 256 falls in the first piece, at the same place
    rw [dif_pos h]
    exact concatenate_pair_apply_left (t := S16384x320) (s₁ := S16384x256) (s₂ := S16384x64) (1 : Fin 2) _ _ _ (ix2 r l) rfl
      (ix2 r (⟨l.val, h⟩ : Fin 256)) (fun b => by fin_cases b <;> rfl)
  · -- a column from 256 on falls in the second piece, 256 columns earlier
    rw [dif_neg h]
    refine concatenate_pair_apply_right (t := S16384x320) (s₁ := S16384x256) (s₂ := S16384x64) (1 : Fin 2) _ _ _ (ix2 r l) rfl rfl
      (ix2 r (⟨l.val - 256, by have := l.isLt; omega⟩ : Fin 64)) (fun b hb => ?_) ?_
    · fin_cases b
      · rfl
      · exact absurd rfl hb
    · show l.val - 256 + 256 = l.val
      omega

theorem arr_v2 (i : S320x1024.Idx) : (V m c main_v2 : S320x1024.Idx → EReal) i = (m ((c : Thread nD τ).loc main_arg2) : S320x1024.Idx → EReal) i := by
  have e : @Eq (S320x1024.Idx → EReal) (V m c main_v2)
      (truncf (F := Ideal) (s := S320x1024) (φ := .f32) .bf16 (m ((c : Thread nD τ).loc main_arg2)) bitsLt_bf16_f32) := by
    dsimp only [Gen.V, Gen.hostOps0]; after_results <;> rfl
  rw [e]; rfl

theorem arr_v3 (k : Fin 1024) : (V m c main_v3 : S1x1024.Idx → EReal) (ix2 (0 : Fin 1) k) = (m ((c : Thread nD τ).loc main_arg3) : S1024.Idx → EReal) (ix1 k) := by
  have e : @Eq (S1x1024.Idx → EReal) (V m c main_v3)
      (shapeCast (s := S1024) (α := EReal) S1x1024 (m ((c : Thread nD τ).loc main_arg3)) shapeCasts_S1024_S1x1024) := by
    dsimp only [Gen.V, Gen.hostOps0]; after_results <;> rfl
  rw [e]
  exact shapeCast_a_1a_apply _ _ _ _

theorem arr_v4 (i : S1024x4256.Idx) : (V m c main_v4 : S1024x4256.Idx → EReal) i = (m ((c : Thread nD τ).loc main_arg4) : S1024x4256.Idx → EReal) i := by
  have e : @Eq (S1024x4256.Idx → EReal) (V m c main_v4)
      (truncf (F := Ideal) (s := S1024x4256) (φ := .f32) .bf16 (m ((c : Thread nD τ).loc main_arg4)) bitsLt_bf16_f32) := by
    dsimp only [Gen.V, Gen.hostOps0]; after_results <;> rfl
  rw [e]; rfl

/-- Window 4's array: the last of the convolution's four taps. -/
theorem arr_v7 (j : Fin 2176) : (V m c main_v7 : S1x2176.Idx → EReal) (ix2 (0 : Fin 1) j) = (m ((c : Thread nD τ).loc main_arg5) : S2176x4.Idx → EReal) (ix2 j (3 : Fin 4)) := by
  have e : @Eq (S1x2176.Idx → EReal) (V m c main_v7)
      (shapeCast (s := S2176) (α := EReal) S1x2176
        (shapeCast (s := S2176x1) (α := EReal) S2176
          (extractStridedSlice (s := S2176x4) (α := EReal) S2176x1 ![0, 3] (m ((c : Thread nD τ).loc main_arg5)) slices_S2176x4_S2176x1_0_3)
          shapeCasts_S2176x1_S2176)
        shapeCasts_S2176_S1x2176) := by
    dsimp only [Gen.V, Gen.hostOps0]; after_results <;> rfl
  rw [e, shapeCast_a_1a_apply]
  -- the column read back as a vector: entry j is the column's (j, 0)
  refine (shapeCast_apply _ _ (ix1 j) (ix2 j (0 : Fin 1)) ?_).trans ?_
  · rw [Shape.rowMajor_val_two, Shape.rowMajor_val_one]
    show j.val * 1 + 0 = j.val
    omega
  · exact slice2_axis1_apply 3 _ _ j (0 : Fin 1) (3 : Fin 4) rfl

theorem arr_v8 (j : Fin 2176) : (V m c main_v8 : S1x2176.Idx → EReal) (ix2 (0 : Fin 1) j) = (m ((c : Thread nD τ).loc main_arg6) : S2176.Idx → EReal) (ix1 j) := by
  have e : @Eq (S1x2176.Idx → EReal) (V m c main_v8)
      (shapeCast (s := S2176) (α := EReal) S1x2176 (m ((c : Thread nD τ).loc main_arg6)) shapeCasts_S2176_S1x2176) := by
    dsimp only [Gen.V, Gen.hostOps0]; after_results <;> rfl
  rw [e]
  exact shapeCast_a_1a_apply _ _ _ _

theorem arr_v9 (h : Fin 32) : (V m c main_v9 : S1x32.Idx → EReal) (ix2 (0 : Fin 1) h) = (m ((c : Thread nD τ).loc main_arg7) : S32.Idx → EReal) (ix1 h) := by
  have e : @Eq (S1x32.Idx → EReal) (V m c main_v9)
      (shapeCast (s := S32) (α := EReal) S1x32 (m ((c : Thread nD τ).loc main_arg7)) shapeCasts_S32_S1x32) := by
    dsimp only [Gen.V, Gen.hostOps0]; after_results <;> rfl
  rw [e]
  exact shapeCast_a_1a_apply _ _ _ _

/-- Window 7's array: the skip weight of channel j's head. -/
theorem arr_v12 (j : Fin 2048) : (V m c main_v12 : S1x2048.Idx → EReal) (ix2 (0 : Fin 1) j) = (m ((c : Thread nD τ).loc main_arg9) : S32.Idx → EReal) (ix1 (head j)) := by
  have e : @Eq (S1x2048.Idx → EReal) (V m c main_v12)
      (shapeCast (s := S2048) (α := EReal) S1x2048
        (shapeCast (s := S32x64) (α := EReal) S2048
          (broadcastInDim (s := S32) (α := EReal) S32x64 ![0] bcast_S32_S32x64_0 (m ((c : Thread nD τ).loc main_arg9)))
          shapeCasts_S32x64_S2048)
        shapeCasts_S2048_S1x2048) := by
    dsimp only [Gen.V, Gen.hostOps0]; after_results <;> rfl
  rw [e, shapeCast_a_1a_apply]
  -- entry j of the flattened 32 x 64 array is its (j / 64, j % 64)
  refine (shapeCast_apply _ _ (ix1 j) (ix2 (head j) (⟨j.val % 64, Nat.mod_lt _ (by decide)⟩ : Fin 64)) ?_).trans ?_
  · rw [Shape.rowMajor_val_two, Shape.rowMajor_val_one]
    show j.val / 64 * 64 + j.val % 64 = j.val
    omega
  · refine broadcastInDim_apply _ _ _ _ (ix1 (head j)) fun a => ?_
    have ha : a = 0 := Subsingleton.elim _ _
    subst ha
    rfl

/-- Window 8's array: one at (h, j) when channel j belongs to head h, zero elsewhere. -/
theorem arr_v20 (h : Fin 32) (j : Fin 2048) : (V m c main_v20 : S32x2048.Idx → EReal) (ix2 h j) = (if h = head j then (1 : EReal) else 0) := by
  have e : @Eq (S32x2048.Idx → EReal) (V m c main_v20)
      (shapeCast (s := S32x32x64) (α := EReal) S32x2048
        (broadcastInDim (s := S32x32) (α := EReal) S32x32x64 ![0, 1] bcast_S32x32_S32x32x64_0_1
          (uitofp (F := Ideal) (s := S32x32) (w := 1) .bf16
            (cmpi .eq
              (addi (iotaInDim S32x32 32 0)
                (broadcastInDim (s := S_) (α := BitVec 32) S32x32 ![] bcast_S_S32x32 (constantI S_ 32 0#32)))
              (iotaInDim S32x32 32 1))))
        shapeCasts_S32x32x64_S32x2048) := by
    dsimp only [Gen.V, Gen.hostOps0]; after_results <;> rfl
  rw [e]
  -- entry (h, j) of the flattened array is the 32 x 32 x 64 array's (h, j / 64, j % 64)
  refine (shapeCast_apply _ _ (ix2 h j) (ix3 h (head j) (⟨j.val % 64, Nat.mod_lt _ (by decide)⟩ : Fin 64)) ?_).trans ?_
  · rw [Shape.rowMajor_val_two, Shape.rowMajor_val_three]
    show (h.val * 32 + j.val / 64) * 64 + j.val % 64 = h.val * 2048 + j.val
    omega
  -- which does not depend on the last coordinate: it is the 32 x 32 array's (h, j / 64)
  refine (broadcastInDim_apply _ _ _ _ (ix2 h (head j)) fun a => by fin_cases a <;> rfl).trans ?_
  -- there the row number (plus zero) is compared with the column number, and the bit is read as a number
  show (((IntOp.cmpi .eq (IntOp.addi (BitVec.ofNat 32 h.val) 0#32) (BitVec.ofNat 32 (head j).val)).toNat : ℝ) : EReal) = _
  rw [bit_toNat]
  by_cases hh : h = head j
  · rw [if_pos ((word_eq_iff h (head j)).mpr hh), if_pos hh]; simp
  · rw [if_neg (fun hw => hh ((word_eq_iff h (head j)).mp hw)), if_neg hh]; simp

theorem arr_v21 (j : Fin 2048) : (V m c main_v21 : S1x2048.Idx → EReal) (ix2 (0 : Fin 1) j) = (m ((c : Thread nD τ).loc main_arg10) : S2048.Idx → EReal) (ix1 j) := by
  have e : @Eq (S1x2048.Idx → EReal) (V m c main_v21)
      (shapeCast (s := S2048) (α := EReal) S1x2048 (m ((c : Thread nD τ).loc main_arg10)) shapeCasts_S2048_S1x2048) := by
    dsimp only [Gen.V, Gen.hostOps0]; after_results <;> rfl
  rw [e]
  exact shapeCast_a_1a_apply _ _ _ _

theorem arr_v22 (i : S2048x1024.Idx) : (V m c main_v22 : S2048x1024.Idx → EReal) i = (m ((c : Thread nD τ).loc main_arg11) : S2048x1024.Idx → EReal) i := by
  have e : @Eq (S2048x1024.Idx → EReal) (V m c main_v22)
      (truncf (F := Ideal) (s := S2048x1024) (φ := .f32) .bf16 (m ((c : Thread nD τ).loc main_arg11)) bitsLt_bf16_f32) := by
    dsimp only [Gen.V, Gen.hostOps0]; after_results <;> rfl
  rw [e]; rfl

theorem arr_v23 (i : S1024x256.Idx) : (V m c main_v23 : S1024x256.Idx → EReal) i = (m ((c : Thread nD τ).loc main_arg12) : S1024x256.Idx → EReal) i := by
  have e : @Eq (S1024x256.Idx → EReal) (V m c main_v23)
      (truncf (F := Ideal) (s := S1024x256) (φ := .f32) .bf16 (m ((c : Thread nD τ).loc main_arg12)) bitsLt_bf16_f32) := by
    dsimp only [Gen.V, Gen.hostOps0]; after_results <;> rfl
  rw [e]; rfl

theorem arr_v24 (q : Fin 256) : (V m c main_v24 : S1x256.Idx → EReal) (ix2 (0 : Fin 1) q) = (m ((c : Thread nD τ).loc main_arg13) : S256.Idx → EReal) (ix1 q) := by
  have e : @Eq (S1x256.Idx → EReal) (V m c main_v24)
      (shapeCast (s := S256) (α := EReal) S1x256 (m ((c : Thread nD τ).loc main_arg13)) shapeCasts_S256_S1x256) := by
    dsimp only [Gen.V, Gen.hostOps0]; after_results <;> rfl
  rw [e]
  exact shapeCast_a_1a_apply _ _ _ _

end Cert.KernelIdeal.Windows

end
-- ==== Proof.Blocks.lean ====
/-
  From blocks to the array.  Grid point t handles rows 256 t … 256 t + 255: its input block is those rows of the joined
  input, every weight's block is the weight's whole array, and its output block is those rows of the result.  The 64 output
  blocks tile the result array, so after the run the array holds, row by row, the row function of the input's rows.
-/
import proofs.«150620_j17403207483676_1_alg».proof.Proof.Gen.KernelIdeal.Value
import proofs.«150620_j17403207483676_1_alg».proof.Proof.KernelBody
import proofs.«150620_j17403207483676_1_alg».proof.Proof.Windows

noncomputable section

namespace Cert.KernelIdeal.Blocks

open Cert.KernelIdeal Cert.KernelIdeal.Gen Cert.KernelIdeal.Value Idealize.ShloMosaic Idealize.ShloMosaic.TcCoe Idealize.SL.Sem
  Idealize.ShloMosaic.ValueIdx Cert.SsmRow
open Idealize.ShloMosaic.Pipeline (Dat)

variable (m : (ℓ : Loc nD τ sig) → Buf (Elt Ideal) ℓ) (ρ : Dev nD → PrngReg)

/-! ## The printed index maps, decided over the 64 grid points -/

/-- The input's and the output's block index at point t is (t, 0). -/
theorem idx_rows : ∀ t : Fin cfg0.N, win0_0.index t (0 : Fin 2) = t.val ∧ win0_0.index t (1 : Fin 2) = 0
    ∧ win0_13.index t (0 : Fin 2) = t.val ∧ win0_13.index t (1 : Fin 2) = 0 :=
  (by decide +kernel : ∀ t : Fin grid0.N, _)

theorem idx_w1 : ∀ t : Fin cfg0.N, win0_1.index t (0 : Fin 2) = 0 ∧ win0_1.index t (1 : Fin 2) = 0 :=
  (by decide +kernel : ∀ t : Fin grid0.N, _)
theorem idx_w2 : ∀ t : Fin cfg0.N, win0_2.index t (0 : Fin 2) = 0 ∧ win0_2.index t (1 : Fin 2) = 0 :=
  (by decide +kernel : ∀ t : Fin grid0.N, _)
theorem idx_w3 : ∀ t : Fin cfg0.N, win0_3.index t (0 : Fin 2) = 0 ∧ win0_3.index t (1 : Fin 2) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)
theorem idx_w5 : ∀ t : Fin cfg0.N, win0_5.index t (0 : Fin 2) = 0 ∧ win0_5.index t (1 : Fin 2) = 0 :=
  (by decide +kernel : ∀ t : Fin grid0.N, _)
theorem idx_w6 : ∀ t : Fin cfg0.N, win0_6.index t (0 : Fin 2) = 0 ∧ win0_6.index t (1 : Fin 2) = 0 :=
  (by decide +kernel : ∀ t : Fin grid0.N, _)
theorem idx_w7 : ∀ t : Fin cfg0.N, win0_7.index t (0 : Fin 2) = 0 ∧ win0_7.index t (1 : Fin 2) = 0 :=
  (by decide +kernel : ∀ t : Fin grid0.N, _)
theorem idx_w8 : ∀ t : Fin cfg0.N, win0_8.index t (0 : Fin 2) = 0 ∧ win0_8.index t (1 : Fin 2) = 0 :=
  (by decide +kernel : ∀ t : Fin grid0.N, _)
theorem idx_w9 : ∀ t : Fin cfg0.N, win0_9.index t (0 : Fin 2) = 0 ∧ win0_9.index t (1 : Fin 2) = 0 :=
  (by decide +kernel : ∀ t : Fin grid0.N, _)
theorem idx_w10 : ∀ t : Fin cfg0.N, win0_10.index t (0 : Fin 2) = 0 ∧ win0_10.index t (1 : Fin 2) = 0 :=
  (by decide +kernel : ∀ t : Fin grid0.N, _)
theorem idx_w11 : ∀ t : Fin cfg0.N, win0_11.index t (0 : Fin 2) = 0 ∧ win0_11.index t (1 : Fin 2) = 0 :=
  (by decide +kernel : ∀ t : Fin grid0.N, _)
theorem idx_w12 : ∀ t : Fin cfg0.N, win0_12.index t (0 : Fin 2) = 0 ∧ win0_12.index t (1 : Fin 2) = 0 :=
  (by decide +kernel : ∀ t : Fin grid0.N, _)

/-! ## Each input block as entries of its array -/

/-- Row p of the input block at point t is row 256 t + p of the joined input's array. -/
theorem iblk0_apply (c : Dev nD) (t : Fin cfg0.N) (p : Fin 256) (l : Fin 320) (r : Fin 16384) (hr : r.val = 256 * t.val + p.val) :
    (iblk m c 0 t : Vec Ideal S256x320 .bf16) (ix2 p l) = (V m c main_v1 : S16384x320.Idx → EReal) (ix2 r l) := by
  obtain ⟨hi, hi1, -, -⟩ := idx_rows t
  unfold iblk
  rw [View.read_apply]
  show V m c main_v1 _ = V m c main_v1 _
  congr 1
  funext a
  apply Fin.ext
  match a with
  | ⟨0, _⟩ => show win0_0.index t (0 : Fin 2) * 256 + 1 * p.val = r.val; rw [hi, hr]; omega
  | ⟨1, _⟩ => show win0_0.index t (1 : Fin 2) * 320 + 1 * l.val = l.val; rw [hi1]; omega

theorem iblk1_apply (c : Dev nD) (t : Fin cfg0.N) (y : S320x1024.Idx) :
    (iblk m c 1 t : Vec Ideal S320x1024 .bf16) y = (V m c main_v2 : S320x1024.Idx → EReal) y := by
  obtain ⟨hi, hi1⟩ := idx_w1 t
  unfold iblk
  rw [View.read_apply]
  show V m c main_v2 _ = V m c main_v2 _
  congr 1
  funext a
  apply Fin.ext
  match a with
  | ⟨0, _⟩ => show win0_1.index t (0 : Fin 2) * 320 + 1 * (y 0).val = (y 0).val; rw [hi]; omega
  | ⟨1, _⟩ => show win0_1.index t (1 : Fin 2) * 1024 + 1 * (y 1).val = (y 1).val; rw [hi1]; omega

theorem iblk2_apply (c : Dev nD) (t : Fin cfg0.N) (y : S1x1024.Idx) :
    (iblk m c 2 t : Vec Ideal S1x1024 .f32) y = (V m c main_v3 : S1x1024.Idx → EReal) y := by
  obtain ⟨hi, hi1⟩ := idx_w2 t
  unfold iblk
  rw [View.read_apply]
  show V m c main_v3 _ = V m c main_v3 _
  congr 1
  funext a
  apply Fin.ext
  match a with
  | ⟨0, _⟩ => show win0_2.index t (0 : Fin 2) * 1 + 1 * (y 0).val = (y 0).val; rw [hi]; omega
  | ⟨1, _⟩ => show win0_2.index t (1 : Fin 2) * 1024 + 1 * (y 1).val = (y 1).val; rw [hi1]; omega

theorem iblk3_apply (c : Dev nD) (t : Fin cfg0.N) (y : S1024x4256.Idx) :
    (iblk m c 3 t : Vec Ideal S1024x4256 .bf16) y = (V m c main_v4 : S1024x4256.Idx → EReal) y := by
  obtain ⟨hi, hi1⟩ := idx_w3 t
  unfold iblk
  rw [View.read_apply]
  show V m c main_v4 _ = V m c main_v4 _
  congr 1
  funext a
  apply Fin.ext
  match a with
  | ⟨0, _⟩ => show win0_3.index t (0 : Fin 2) * 1024 + 1 * (y 0).val = (y 0).val; rw [hi]; omega
  | ⟨1, _⟩ => show win0_3.index t (1 : Fin 2) * 4256 + 1 * (y 1).val = (y 1).val; rw [hi1]; omega

theorem iblk4_apply (c : Dev nD) (t : Fin cfg0.N) (y : S1x2176.Idx) :
    (iblk m c 4 t : Vec Ideal S1x2176 .f32) y = (V m c main_v7 : S1x2176.Idx → EReal) y := by
  obtain ⟨hi, hi1⟩ := idx_w4 t
  unfold iblk
  rw [View.read_apply]
  show V m c main_v7 _ = V m c main_v7 _
  congr 1
  funext a
  apply Fin.ext
  match a with
  | ⟨0, _⟩ => show win0_4.index t (0 : Fin 2) * 1 + 1 * (y 0).val = (y 0).val; rw [hi]; omega
  | ⟨1, _⟩ => show win0_4.index t (1 : Fin 2) * 2176 + 1 * (y 1).val = (y 1).val; rw [hi1]; omega

theorem iblk5_apply (c : Dev nD) (t : Fin cfg0.N) (y : S1x2176.Idx) :
    (iblk m c 5 t : Vec Ideal S1x2176 .f32) y = (V m c main_v8 : S1x2176.Idx → EReal) y := by
  obtain ⟨hi, hi1⟩ := idx_w5 t
  unfold iblk
  rw [View.read_apply]
  show V m c main_v8 _ = V m c main_v8 _
  congr 1
  funext a
  apply Fin.ext
  match a with
  | ⟨0, _⟩ => show win0_5.index t (0 : Fin 2) * 1 + 1 * (y 0).val = (y 0).val; rw [hi]; omega
  | ⟨1, _⟩ => show win0_5.index t (1 : Fin 2) * 2176 + 1 * (y 1).val = (y 1).val; rw [hi1]; omega

theorem iblk6_apply (c : Dev nD) (t : Fin cfg0.N) (y : S1x32.Idx) :
    (iblk m c 6 t : Vec Ideal S1x32 .f32) y = (V m c main_v9 : S1x32.Idx → EReal) y := by
  obtain ⟨hi, hi1⟩ := idx_w6 t
  unfold iblk
  rw [View.read_apply]
  show V m c main_v9 _ = V m c main_v9 _
  congr 1
  funext a
  apply Fin.ext
  match a with
  | ⟨0, _⟩ => show win0_6.index t (0 : Fin 2) * 1 + 1 * (y 0).val = (y 0).val; rw [hi]; omega
  | ⟨1, _⟩ => show win0_6.index t (1 : Fin 2) * 32 + 1 * (y 1).val = (y 1).val; rw [hi1]; omega

theorem iblk7_apply (c : Dev nD) (t : Fin cfg0.N) (y : S1x2048.Idx) :
    (iblk m c 7 t : Vec Ideal S1x2048 .f32) y = (V m c main_v12 : S1x2048.Idx → EReal) y := by
  obtain ⟨hi, hi1⟩ := idx_w7 t
  unfold iblk
  rw [View.read_apply]
  show V m c main_v12 _ = V m c main_v12 _
  congr 1
  funext a
  apply Fin.ext
  match a with
  | ⟨0, _⟩ => show win0_7.index t (0 : Fin 2) * 1 + 1 * (y 0).val = (y 0).val; rw [hi]; omega
  | ⟨1, _⟩ => show win0_7.index t (1 : Fin 2) * 2048 + 1 * (y 1).val = (y 1).val; rw [hi1]; omega

theorem iblk8_apply (c : Dev nD) (t : Fin cfg0.N) (y : S32x2048.Idx) :
    (iblk m c 8 t : Vec Ideal S32x2048 .bf16) y = (V m c main_v20 : S32x2048.Idx → EReal) y := by
  obtain ⟨hi, hi1⟩ := idx_w8 t
  unfold iblk
  rw [View.read_apply]
  show V m c main_v20 _ = V m c main_v20 _
  congr 1
  funext a
  apply Fin.ext
  match a with
  | ⟨0, _⟩ => show win0_8.index t (0 : Fin 2) * 32 + 1 * (y 0).val = (y 0).val; rw [hi]; omega
  | ⟨1, _⟩ => show win0_8.index t (1 : Fin 2) * 2048 + 1 * (y 1).val = (y 1).val; rw [hi1]; omega

theorem iblk9_apply (c : Dev nD) (t : Fin cfg0.N) (y : S1x2048.Idx) :
    (iblk m c 9 t : Vec Ideal S1x2048 .f32) y = (V m c main_v21 : S1x2048.Idx → EReal) y := by
  obtain ⟨hi, hi1⟩ := idx_w9 t
  unfold iblk
  rw [View.read_apply]
  show V m c main_v21 _ = V m c main_v21 _
  congr 1
  funext a
  apply Fin.ext
  match a with
  | ⟨0, _⟩ => show win0_9.index t (0 : Fin 2) * 1 + 1 * (y 0).val = (y 0).val; rw [hi]; omega
  | ⟨1, _⟩ => show win0_9.index t (1 : Fin 2) * 2048 + 1 * (y 1).val = (y 1).val; rw [hi1]; omega

theorem iblk10_apply (c : Dev nD) (t : Fin cfg0.N) (y : S2048x1024.Idx) :
    (iblk m c 10 t : Vec Ideal S2048x1024 .bf16) y = (V m c main_v22 : S2048x1024.Idx → EReal) y := by
  obtain ⟨hi, hi1⟩ := idx_w10 t
  unfold iblk
  rw [View.read_apply]
  show V m c main_v22 _ = V m c main_v22 _
  congr 1
  funext a
  apply Fin.ext
  match a with
  | ⟨0, _⟩ => show win0_10.index t (0 : Fin 2) * 2048 + 1 * (y 0).val = (y 0).val; rw [hi]; omega
  | ⟨1, _⟩ => show win0_10.index t (1 : Fin 2) * 1024 + 1 * (y 1).val = (y 1).val; rw [hi1]; omega

theorem iblk11_apply (c : Dev nD) (t : Fin cfg0.N) (y : S1024x256.Idx) :
    (iblk m c 11 t : Vec Ideal S1024x256 .bf16) y = (V m c main_v23 : S1024x256.Idx → EReal) y := by
  obtain ⟨hi, hi1⟩ := idx_w11 t
  unfold iblk
  rw [View.read_apply]
  show V m c main_v23 _ = V m c main_v23 _
  congr 1
  funext a
  apply Fin.ext
  match a with
  | ⟨0, _⟩ => show win0_11.index t (0 : Fin 2) * 1024 + 1 * (y 0).val = (y 0).val; rw [hi]; omega
  | ⟨1, _⟩ => show win0_11.index t (1 : Fin 2) * 256 + 1 * (y 1).val = (y 1).val; rw [hi1]; omega

theorem iblk12_apply (c : Dev nD) (t : Fin cfg0.N) (y : S1x256.Idx) :
    (iblk m c 12 t : Vec Ideal S1x256 .f32) y = (V m c main_v24 : S1x256.Idx → EReal) y := by
  obtain ⟨hi, hi1⟩ := idx_w12 t
  unfold iblk
  rw [View.read_apply]
  show V m c main_v24 _ = V m c main_v24 _
  congr 1
  funext a
  apply Fin.ext
  match a with
  | ⟨0, _⟩ => show win0_12.index t (0 : Fin 2) * 1 + 1 * (y 0).val = (y 0).val; rw [hi]; omega
  | ⟨1, _⟩ => show win0_12.index t (1 : Fin 2) * 256 + 1 * (y 1).val = (y 1).val; rw [hi1]; omega

/-! ## The blocks as the argument arrays -/

/-- Every weight's block, at every point, is the weight as the argument arrays hold it. -/
theorem block_weights (c : Dev nD) (t : Fin cfg0.N) :
    blockWeights (iblk m c 1 t) (iblk m c 2 t) (iblk m c 3 t) (iblk m c 4 t) (iblk m c 5 t) (iblk m c 6 t) (iblk m c 7 t) (iblk m c 9 t) (iblk m c 10 t) (iblk m c 11 t) (iblk m c 12 t)
      = weights (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13)) := by
  unfold blockWeights weights
  congr 1
  · funext l k; exact (iblk1_apply m c t _).trans (Windows.arr_v2 m c _)
  · funext k; exact (iblk2_apply m c t _).trans (Windows.arr_v3 m c k)
  · funext k j; exact (iblk3_apply m c t _).trans (Windows.arr_v4 m c _)
  · funext j; exact (iblk4_apply m c t _).trans (Windows.arr_v7 m c j)
  · funext j; exact (iblk5_apply m c t _).trans (Windows.arr_v8 m c j)
  · funext h; exact (iblk6_apply m c t _).trans (Windows.arr_v9 m c h)
  · funext j; exact (iblk7_apply m c t _).trans (Windows.arr_v12 m c j)
  · funext j; exact (iblk9_apply m c t _).trans (Windows.arr_v21 m c j)
  · funext j k; exact (iblk10_apply m c t _).trans (Windows.arr_v22 m c _)
  · funext k q; exact (iblk11_apply m c t _).trans (Windows.arr_v23 m c _)
  · funext q; exact (iblk12_apply m c t _).trans (Windows.arr_v24 m c q)

/-- Row p of the input block at point t is row 256 t + p of the two inputs joined. -/
theorem block_row (c : Dev nD) (t : Fin cfg0.N) (p : Fin 256) (r : Fin 16384) (hr : r.val = 256 * t.val + p.val) :
    (fun l => (iblk m c 0 t : Vec Ideal S256x320 .bf16) (ix2 p l)) = joined (m ((c : Thread nD τ).loc main_arg0)) (m ((c : Thread nD τ).loc main_arg1)) r :=
  funext fun l => (iblk0_apply m c t p l r hr).trans (Windows.arr_v1 m c r l)

/-- The block of the 0/1 head matrix, at every point. -/
theorem block_heads (c : Dev nD) (t : Fin cfg0.N) (h : Fin 32) (j : Fin 2048) :
    (iblk m c 8 t : Vec Ideal S32x2048 .bf16) (ix2 h j) = (if h = head j then (1 : EReal) else 0) :=
  (iblk8_apply m c t _).trans (Windows.arr_v20 m c h j)

/-! ## The result array -/

/-- What the kernel leaves in its result array: row by row, the row function with the common factor taken out. -/
abbrev kernelResult (c : Dev nD) : S16384x256.Idx → EReal :=
  resultFused (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11)) (m ((c : Thread nD τ).loc main_arg12)) (m ((c : Thread nD τ).loc main_arg13))

theorem hz : (![0, 0] : Fin 2 → Nat) = fun _ => 0 := funext fun a => by fin_cases a <;> rfl

/-- What point t writes back is block t of the result array. -/
theorem flushed_eq (c : Dev nD) (t : Fin cfg0.N) :
    (dats m 0 c).flushed 13 t = ((cfg0.win 13).blk t).view.read (Elt Ideal) (kernelResult m c) := by
  rw [Value.flushed13]
  obtain ⟨-, -, ho, ho1⟩ := idx_rows t
  funext y
  obtain ⟨p, q, rfl⟩ : ∃ (p : Fin 256) (q : Fin 256), y = ix2 p q := ⟨y 0, y 1, eq_ix2 y⟩
  have ht : t.val < 64 := Nat.lt_of_lt_of_eq t.isLt N_0
  let r : Fin 16384 := ⟨256 * t.val + p.val, by have := p.isLt; omega⟩
  show out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 p q) = kernelResult m c (((cfg0.win 13).blk t).view.emb (ix2 p q))
  refine (Body.body_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (block_heads m c t) p q).trans ?_
  rw [block_weights m c t, block_row m c t p r rfl]
  have e : ((cfg0.win 13).blk t).view.emb (ix2 p q) = ix2 r q := by
    funext a
    apply Fin.ext
    match a with
    | ⟨0, _⟩ => show win0_13.index t (0 : Fin 2) * 256 + 1 * p.val = 256 * t.val + p.val; rw [ho]; omega
    | ⟨1, _⟩ => show win0_13.index t (1 : Fin 2) * 256 + 1 * q.val = q.val; rw [ho1]; omega
  rw [e]
  rfl

/-- An index of the result array is in point t's block iff each coordinate is in the block's range on its axis. -/
theorem mem_blk (t : Fin cfg0.N) (i : S16384x256.Idx) :
    i ∈ ((cfg0.win 13).blk t).view.set ↔ ∀ a : Fin 2, win0_13.index t a * S256x256.size a ≤ (i a).val ∧ (i a).val < win0_13.index t a * S256x256.size a + S256x256.size a := by
  show i ∈ ((View.whole main_v25).slice (win0_13.rect t)).set ↔ _
  rw [View.set_slice_whole, Rect.mem_set_unit]
  exact Iff.rfl

/-- The 64 output blocks tile the result array: row r is in block r / 256. -/
theorem covered (i : S16384x256.Idx) :
    ∃ t : Fin cfg0.N, (cfg0.win 13).flush t = true ∧ i ∈ ((cfg0.win 13).blk t).view.set := by
  have hi0 : (i 0).val < 16384 := (i 0).isLt
  have hi1 : (i 1).val < 256 := (i 1).isLt
  let t : Fin cfg0.N := ⟨(i 0).val / 256, Nat.lt_of_lt_of_eq (by omega) N_0.symm⟩
  obtain ⟨-, -, ho, ho1⟩ := idx_rows t
  refine ⟨t, flush0_13 t, ?_⟩
  rw [mem_blk]
  intro a
  match a with
  | ⟨0, _⟩ => show win0_13.index t (0 : Fin 2) * 256 ≤ (i 0).val ∧ (i 0).val < win0_13.index t (0 : Fin 2) * 256 + 256; rw [ho]; show (i 0).val / 256 * 256 ≤ (i 0).val ∧ (i 0).val < (i 0).val / 256 * 256 + 256; omega
  | ⟨1, _⟩ => show win0_13.index t (1 : Fin 2) * 256 ≤ (i 1).val ∧ (i 1).val < win0_13.index t (1 : Fin 2) * 256 + 256; rw [ho1]; omega

/-- After the run the result array holds the row function of every row. -/
theorem final (c : Dev nD) : (dats m 0 c).arrAt 13 cfg0.N = kernelResult m c :=
  (dats m 0 c).arrAt_eq_of_cover 13 (kernelResult m c) (fun t _ => flushed_eq m c t) covered

/-- The kernel's run, read: the result array at the row function of the argument arrays, the arguments unchanged. -/
theorem run : θ_run defs (onTc (τ := τ) (main (F := Ideal))) ⟨m, fun _ => 0, ρ⟩ fun r => ∀ c : Dev nD,
      r.2.mem ((c : Thread nD τ).loc main_v25) = kernelResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (Value.run_blocks m ρ)

end Cert.KernelIdeal.Blocks

end
-- ==== Proof.lean ====
/-
  The certificate.  Both programs compute, for every row of the joined input, the same row function (Spec.lean): two affine
  maps, silu and softplus, the one-step scan y = x * (dt * <B, C>) + D * x, the gated root-mean-square normalisation and two
  more linear maps.  The reference writes the scan line as the sum of two products (RefValue.lean); the kernel takes the
  common factor x out and picks each channel's head by a product with a 0/1 matrix (KernelFront.lean, KernelBack.lean,
  KernelBody.lean), and computes the rows in 64 blocks of 256 that tile the result (Windows.lean, Blocks.lean).  On the
  extended reals the factor may be taken out because the precondition makes every input entry, hence every convolved
  channel, a real number (Finite.lean, Spec.lean).  The kernel's frames are the generated ones, the reference's frame is its
  generated run with the result dropped, and the idealization rewrote nothing.
-/
import proofs.«150620_j17403207483676_1_alg».proof.Defs
import proofs.«150620_j17403207483676_1_alg».proof.Proof.Gen.Kernel
import proofs.«150620_j17403207483676_1_alg».proof.Proof.Gen.Kernel.Skeleton
import proofs.«150620_j17403207483676_1_alg».proof.Proof.Gen.Kernel.Launch
import proofs.«150620_j17403207483676_1_alg».proof.Proof.Gen.Kernel.Points
import proofs.«150620_j17403207483676_1_alg».proof.Proof.Gen.Kernel.Frame
import proofs.«150620_j17403207483676_1_alg».proof.Proof.Gen.KernelIdeal
import proofs.«150620_j17403207483676_1_alg».proof.Proof.Gen.KernelIdeal.Skeleton
import proofs.«150620_j17403207483676_1_alg».proof.Proof.Gen.KernelIdeal.Launch
import proofs.«150620_j17403207483676_1_alg».proof.Proof.Gen.KernelIdeal.Points
import proofs.«150620_j17403207483676_1_alg».proof.Proof.Gen.KernelIdeal.Frame
import proofs.«150620_j17403207483676_1_alg».proof.Proof.Gen.ReferenceIdeal
import proofs.«150620_j17403207483676_1_alg».proof.Proof.Gen.Pre_finite_inputs
import proofs.«150620_j17403207483676_1_alg».proof.Proof.Gen.KernelIdeal.Value
import proofs.«150620_j17403207483676_1_alg».proof.Proof.Gen.ReferenceIdeal.Run
import proofs.«150620_j17403207483676_1_alg».proof.Proof.Gen.ReferenceIdeal.Read
import proofs.«150620_j17403207483676_1_alg».proof.Proof.Spec
import proofs.«150620_j17403207483676_1_alg».proof.Proof.Finite
import proofs.«150620_j17403207483676_1_alg».proof.Proof.RefValue
import proofs.«150620_j17403207483676_1_alg».proof.Proof.Blocks
import Idealize.ShloMosaic.Adequacy
import Idealize.ShloMosaic.Init

noncomputable section

namespace Cert.Proof

open Idealize.ShloMosaic Idealize.ShloMosaic.TcCoe Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel's result array holds the row function with the common factor taken out, the reference's the row function
    as a sum of two products, of arguments that agree; with real inputs the two are one array. -/
theorem algebraic : Cert.algebraic_KernelIdeal_ReferenceIdeal := by
  intro m ρ m' ρ' hpre hagree
  refine ⟨fun c => Cert.KernelIdeal.Blocks.kernelResult m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, Cert.ReferenceIdeal.RefValue.ref_result]
  obtain ⟨e0, e1, e2, e3, e4, e5, e6, e7, -, e9, e10, e11, e12, e13⟩ := hagree c
  rw [e0, e1, e2, e3, e4, e5, e6, e7, e9, e10, e11, e12, e13]
  obtain ⟨h0, h1, h2, h3, h4, h5, h6, h9⟩ := Cert.Pre_finite_inputs.Finite.real_of_fn _ _ _ _ _ _ _ _ _ _ _ _ _ _ (hpre c)
  exact (Cert.SsmRow.resultFused_eq_result _ _ _ _ _ _ _ _ _ _ _ _ _ h0 h1 h2 h3 h4 h5 h6 h9).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
